-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 11
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S400x128, .f32⟩
  | .local _ .vmem, ⟨10, _⟩ => ⟨S10000x128, .f32⟩
  | .local _ .vmem, ⟨11, _⟩ => ⟨S400x10000, .f32⟩
  | .local _ .vmem, ⟨12, _⟩ => ⟨S400x10000, .f32⟩
  | .local _ .vmem, ⟨13, _⟩ => ⟨S10000x128, .f32⟩
  | .local _ .vmem, ⟨14, _⟩ => ⟨S1x128, .f32⟩
  | .local _ .vmem, ⟨15, _⟩ => ⟨S400x128, .f32⟩
  | .local _ .vmem, ⟨16, _⟩ => ⟨S400x128, .f32⟩
  | .local _ .vmem, ⟨17, _⟩ => ⟨S400x128, .f32⟩
  | .local _ .vmem, ⟨18, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsData.lean ====
/-
  The two kernel regions' proof data, at any float instance and at any contents `V` of the core's buffers when a
  region is entered.

  Region 0 (the first layer) runs 25 points; point t reads rows 400 t … 400 t + 399 of the adjacency array.  At
  its first point the body stores the support  x · W1  into a scratch buffer that every later point reads
  back, so the region's invariant names that buffer's contents from the second point on.  Each point leaves,
  in its two output blocks, the rectified rows of the hidden array and their product with W2.

  Region 1 (the second layer) runs 25 points, each leaving one block of the result: the rectified rows of
  adj · s2 + b2  plus the same rows of the hidden array.
-/
import proofs.«134732_g77695958385289_cont_9to1_m_732_14_alg».proof.Proof.Gen.Kernel.Launch
import proofs.«134732_g77695958385289_cont_9to1_m_732_14_alg».proof.Proof.Gen.Kernel.Skeleton
import proofs.«134732_g77695958385289_cont_9to1_m_732_14_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer rectangles the bodies load and store through -/

abbrev rAdj : Rect S400x10000 := Rect.unit (s := S400x10000) ![0, 0] S400x10000.size inb_S400x10000_S400x10000_0_0
abbrev rFeat : Rect S10000x128 := Rect.unit (s := S10000x128) ![0, 0] S10000x128.size inb_S10000x128_S10000x128_0_0
abbrev rSq : Rect S128x128 := Rect.unit (s := S128x128) ![0, 0] S128x128.size inb_S128x128_S128x128_0_0
abbrev rRow : Rect S1x128 := Rect.unit (s := S1x128) ![0, 0] S1x128.size inb_S1x128_S1x128_0_0
abbrev rBlk : Rect S400x128 := Rect.unit (s := S400x128) ![0, 0] S400x128.size inb_S400x128_S400x128_0_0

/-! ## What a body leaves in a buffer, from what it loaded -/

/-- The scratch after the first point's store: the support of the features `x2` under the weights `x3`. -/
def scrOf (x2 : Vec F S10000x128 .f32) (x3 : Vec F S128x128 .f32) : Vec F S10000x128 .f32 :=
  View.canon [⟨rFeat, k0_pay1 (View.ld x2 rFeat) (View.ld x3 rSq)⟩]

/-- Region 0's first output block: the rectified rows, from the adjacency rows `x1`, the support `s` and the bias row `x5`. -/
def hidOf (x1 : Vec F S400x10000 .f32) (s : Vec F S10000x128 .f32) (x5 : Vec F S1x128 .f32) : Vec F S400x128 .f32 :=
  View.canon [⟨rBlk, k0_pay2 (View.ld x1 rAdj) (View.ld s rFeat) (View.ld x5 rRow)⟩]

/-- Region 0's second output block: those rows times the second weights `x4`. -/
def sup2Of (x1 : Vec F S400x10000 .f32) (s : Vec F S10000x128 .f32) (x5 : Vec F S1x128 .f32) (x4 : Vec F S128x128 .f32) :
    Vec F S400x128 .f32 :=
  View.canon [⟨rBlk, k0_pay3 (View.ld x1 rAdj) (View.ld s rFeat) (View.ld x5 rRow) (View.ld x4 rSq)⟩]

/-- Region 1's output block, from the adjacency rows `x0`, the second support `x1`, the bias row `x2` and the
    hidden rows `x3`. -/
def resOf (x0 : Vec F S400x10000 .f32) (x1 : Vec F S10000x128 .f32) (x2 : Vec F S1x128 .f32) (x3 : Vec F S400x128 .f32) :
    Vec F S400x128 .f32 :=
  View.canon [⟨rBlk, k1_pay1 (View.ld x0 rAdj) (View.ld x1 rFeat) (View.ld x2 rRow) (View.ld x3 rBlk)⟩]

/-! ## The windows' blocks -/

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 0's first point. -/
abbrev pt0 : Fin cfg0.N := ⟨0, by decide⟩

/-- The support the first point stores: every later point finds it in the scratch. -/
def scr (c : Dev nD) : Vec F S10000x128 .f32 := scrOf (iblk0 V c 1 pt0) (iblk0 V c 2 pt0)

/-- The hidden rows point `t` leaves. -/
def hidAt (c : Dev nD) (t : Fin cfg0.N) : Vec F S400x128 .f32 := hidOf (iblk0 V c 0 t) (scr V c) (iblk0 V c 4 t)

/-- The second support's rows point `t` leaves. -/
def sup2At (c : Dev nD) (t : Fin cfg0.N) : Vec F S400x128 .f32 :=
  sup2Of (iblk0 V c 0 t) (scr V c) (iblk0 V c 4 t) (iblk0 V c 3 t)

/-- The result rows point `t` of region 1 leaves. -/
def resAt (c : Dev nD) (t : Fin cfg1.N) : Vec F S400x128 .f32 :=
  resOf (iblk1 V c 0 t) (iblk1 V c 1 t) (iblk1 V c 2 t) (iblk1 V c 3 t)

/-! ## Region 0's invariant: the scratch between points -/

/-- The scratch as a memref. -/
abbrev scM : Memref sig .tc .vmem S10000x128 .f32 := Memref.whole cc0_scratch0

/-- The core's scoped buffers that are neither region 0's staging buffers nor its scratch (region 1's staging
    buffers), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The scratch before position `n`: anything before the first point, the support afterwards. -/
def scrAt (c : Dev nD) : ℕ → sProp 𝕄
  | 0 => iprop(∃ d, owns (c : Thread nD τ) scM fullShare d)
  | _ + 1 => owns (c : Thread nD τ) scM fullShare (scr V c)

/-- Region 0's invariant before position `n`. -/
def PhiL (c : Dev nD) (n : ℕ) : sProp 𝕄 :=
  iprop(scrAt V c n ∗ others (F := F) c ∗ (∃ r, prngReg c r))

/-! ## The proof data -/

/-- Region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hidAt V c t
    | ⟨6, _⟩ => sup2At V c t
  Φ t := PhiL V c t.val
  q _ := fullShare
  owed _ := 0

/-- Region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => resAt V c t
  Φ _ := Pipeline.ΦA spec1 c
  q _ := fullShare
  owed _ := 0

theorem A_eq0 (c : Dev nD) (w : Fin cfg0.W) : (dat0 V c).A w = V c (Pipeline.arrRef spec0 w) := by
  dsimp only [dat0]
theorem A_eq1 (c : Dev nD) (w : Fin cfg1.W) : (dat1 V c).A w = V c (Pipeline.arrRef spec1 w) := by
  dsimp only [dat1]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = hidAt V c t := by dsimp only [dat0]
theorem after0_6 (c : Dev nD) (t : Fin cfg0.N) : (dat0 V c).after 6 t = sup2At V c t := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = resAt V c t := by dsimp only [dat1]

end Cert.Kernel.Hand

end
-- ==== Proof.BitsOuts.lean ====
import proofs.«134732_g77695958385289_cont_9to1_m_732_14_alg».proof.Proof.BitsData
import proofs.«134732_g77695958385289_cont_9to1_m_732_14_alg».proof.Proof.Gen.Kernel.Regions
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The core's buffer contents between the items of the program, from the launch memory `m`: after the two host
  reshapes (region 0's entry), after region 0 (its two output arrays at what its write-backs leave: region 1's
  entry), after region 1 (the result array at what its write-backs leave).
-/
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 0's entry contents, read at a reference: the launch memory after the two reshapes of the bias vectors. -/
abbrev E0 : (c : Dev nD) → (b : Ref sig .tc) → Buf (Elt F) ((c : Thread nD τ).loc b) := fun c b => V1 m c b

/-- After region 0: its arrays at what the pipeline leaves, every other buffer as entered. -/
def W2 (c : Dev nD) : Valuation τ sig (Elt F) :=
  Pipeline.withArrays spec0 c (V1 m c) fun w => (dat0 (E0 m) c).arrAt w cfg0.N

theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w

/-- Region 1's entry contents: region 0's entry contents with the hidden array and the second support at what
    region 0 left. -/
def Ve1 (c : Dev nD) : Valuation τ sig (Elt F) :=
  Function.update (Function.update (V1 m c) main_v2_0 (W2 m c main_v2_0)) main_v2_1 (W2 m c main_v2_1)

abbrev E1 : (c : Dev nD) → (b : Ref sig .tc) → Buf (Elt F) ((c : Thread nD τ).loc b) := fun c b => Ve1 m c b

/-- After region 1. -/
def W4 (c : Dev nD) : Valuation τ sig (Elt F) :=
  Pipeline.withArrays spec1 c (Ve1 m c) fun w => (dat1 (E1 m) c).arrAt w cfg1.N

theorem W4_arr (c : Dev nD) (w : Fin cfg1.W) :
    W4 m c (Proc.devRef .tc (Pipeline.arrRef spec1 w)) = (dat1 (E1 m) c).arrAt w cfg1.N := by
  unfold W4; exact Pipeline.withArrays_arr spec1 launch1.win.arr_inj c _ _ w

/-- What the regions leave in the buffers they may change, item by item. -/
def outs : Outs (F := F) := fun n r c => if n = 2 then W2 m c r else W4 m c r

theorem outs_two (r : Ref sig .tc) (c : Dev nD) : outs m 2 r c = W2 m c r := rfl
theorem outs_three (r : Ref sig .tc) (c : Dev nD) : outs m 3 r c = W4 m c r := rfl

/-- The generated valuation after region 0 is region 1's entry contents. -/
theorem V2_eq (c : Dev nD) : V2 m (outs m) c = Ve1 m c := rfl

/-- The hidden array after region 0. -/
theorem Ve1_hidden (c : Dev nD) : E1 m c main_v2_0 = (dat0 (E0 m) c).arrAt 5 cfg0.N := by
  show Function.update (Function.update (V1 m c) main_v2_0 (W2 m c main_v2_0)) main_v2_1 (W2 m c main_v2_1) main_v2_0 = _
  rw [Function.update_of_ne (StableHlo.devRef_ne_of_ne (by decide) : (Proc.devRef .tc main_v2_0 : DevRef τ sig) ≠ Proc.devRef .tc main_v2_1), Function.update_self]
  exact W2_arr m c 5

/-- The second support after region 0. -/
theorem Ve1_support (c : Dev nD) : E1 m c main_v2_1 = (dat0 (E0 m) c).arrAt 6 cfg0.N := by
  show Function.update (Function.update (V1 m c) main_v2_0 (W2 m c main_v2_0)) main_v2_1 (W2 m c main_v2_1) main_v2_1 = _
  rw [Function.update_self]
  exact W2_arr m c 6

/-- Every other buffer is as region 0 was entered. -/
theorem Ve1_of (c : Dev nD) (r : Ref sig .tc) (h : r ∉ ([main_v2_0, main_v2_1] : List (Ref sig .tc))) : E1 m c r = E0 m c r :=
  (congrFun (V2_eq m c).symm _).trans (V2_of m (outs m) c r h)

/-- The result array after region 1. -/
theorem V3_result (c : Dev nD) : V3 m (outs m) c main_v3 = (dat1 (E1 m) c).arrAt 4 cfg1.N := by
  show Function.update (V2 m (outs m) c) main_v3 (outs m 3 main_v3 c) main_v3 = _
  rw [Function.update_self]
  exact W4_arr m c 4

end Cert.Kernel.Hand

end
-- ==== Proof.BitsLayer1.lean ====
import proofs.«134732_g77695958385289_cont_9to1_m_732_14_alg».proof.Proof.BitsData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch: taken at the first point only -/

/-- The condition of the body's branch, as the body computes it from the grid coordinate. -/
abbrev cond0 (i : grid0.Coords) : Prop := (Scalar.cmpi .ne (Scalar.extui (Scalar.cmpi .eq (BitVec.ofNat 32 (i 0).val) 0#32)) 0#32) = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

/-! ## The stores cover their buffers -/

theorem coverBlk (p0 : Vec F S400x128 .f32) (y : S400x128.Idx) :
    ∃ pc ∈ ([⟨rBlk, p0⟩] : List (View.Piece (Elt F) S400x128 .f32)), y ∈ pc.1.set :=
  View.cover_of_tiled [⟨rBlk, p0⟩] S400x128.size (by rfl) y

theorem coverFeat (p0 : Vec F S10000x128 .f32) (y : S10000x128.Idx) :
    ∃ pc ∈ ([⟨rFeat, p0⟩] : List (View.Piece (Elt F) S10000x128 .f32)), y ∈ pc.1.set :=
  View.cover_of_tiled [⟨rFeat, p0⟩] S10000x128.size (by rfl) y

/-! ## The body on whole memrefs -/

set_option maxHeartbeats 2000000 in
/-- At a point that is not the first the body finds the support `s` in its scratch, leaves every input and the
    scratch as found, and stores the two output blocks. -/
theorem sound_later (c : Dev nD) (E : Set ℕ) (i : grid0.Coords) (hc : ¬cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S400x128 .f32) (harg7 : arg7.IsWhole) (arg8 : Memref sig .tc .vmem S10000x128 .f32) (harg8 : arg8.IsWhole)
    (x1 : Vec F S400x10000 .f32) (x2 : Vec F S10000x128 .f32) (x3 x4 : Vec F S128x128 .f32) (x5 : Vec F S1x128 .f32) (s : Vec F S10000x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ owns (c : Thread nD τ) arg8 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (hidOf x1 s x5) ∗ owns (c : Thread nD τ) arg7 fullShare (sup2Of x1 s x5 x4) ∗ owns (c : Thread nD τ) arg8 fullShare s) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  subst hf1; subst hf2; subst hf3; subst hf4; subst hf5; subst hf8
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverBlk _)
  isplitl [H7]
  · iexists _; isplitr
    swap; · iexact H7
    ipureintro
    exact View.read_writes_eq_canon _ _ _ (coverBlk _)
  iexists f8; isplitr; · ipureintro; rfl
  iexact H8

set_option maxHeartbeats 2000000 in
/-- At the first point the body finds anything in its scratch, stores the support of the features under the
    first weights there, and goes on as at every point. -/
theorem sound_first (c : Dev nD) (E : Set ℕ) (i : grid0.Coords) (hc : cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S400x128 .f32) (harg7 : arg7.IsWhole) (arg8 : Memref sig .tc .vmem S10000x128 .f32) (harg8 : arg8.IsWhole)
    (x1 : Vec F S400x10000 .f32) (x2 : Vec F S10000x128 .f32) (x3 x4 : Vec F S128x128 .f32) (x5 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (hidOf x1 (scrOf x2 x3) x5) ∗ owns (c : Thread nD τ) arg7 fullShare (sup2Of x1 (scrOf x2 x3) x5 x4) ∗ owns (c : Thread nD τ) arg8 fullShare (scrOf x2 x3)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  sl_unfold_words
  rw [View.readCov_eq_canon_ld _ _ _ (coverFeat _)]
  isplitl [H6]
  · iexists _; isplitr
    swap; · iexact H6
    ipureintro
    exact View.read_writes_eq_canon _ _ _ (coverBlk _)
  isplitl [H7]
  · iexists _; isplitr
    swap; · iexact H7
    ipureintro
    exact View.read_writes_eq_canon _ _ _ (coverBlk _)
  iexists _; isplitr
  swap; · iexact H8
  ipureintro
  exact View.read_writes_eq_canon _ _ _ (coverFeat _)

variable (V : (c : Dev nD) → (b : Ref sig .tc) → Buf (Elt F) ((c : Thread nD τ).loc b))

/-! ## What the body finds in the input windows' buffers: their blocks, fetched at the point or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The scratch holds the support before every position but the first. -/
theorem PhiL_succ (c : Dev nD) (n : ℕ) :
    PhiL V c (n + 1) = iprop(owns (c : Thread nD τ) scM fullShare (scr V c) ∗ others (F := F) c ∗ (∃ r, prngReg c r)) := rfl

theorem PhiL_zero (c : Dev nD) :
    PhiL V c 0 = iprop((∃ d, owns (c : Thread nD τ) scM fullShare d) ∗ others (F := F) c ∗ (∃ r, prngReg c r)) := rfl

set_option maxHeartbeats 4000000 in
/-- The body at any point: the inputs' buffers hold their blocks; at the first point the scratch holds anything and
    the body stores the support into it, at every later point it holds the support and the body leaves it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.castSucc = PhiL V c t.val from rfl,
    show (dat0 V c).Φ t.succ = PhiL V c (t.val + 1) from rfl,
    after0_0, after0_1, after0_2, after0_3, after0_4, after0_5, after0_6, PhiL_succ]
  by_cases hz : t.val = 0
  · obtain rfl : t = pt0 := Fin.ext hz
    rw [show PhiL V c (pt0 : Fin cfg0.N).val = PhiL V c 0 from rfl, PhiL_zero]
    iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
    iapply (sound_first c Set.univ (grid0.coords pt0) ((hcond0 pt0).mpr rfl) _ _ _ _ _ _ _ _ _ _ _ _ _ _ _ _
      (iblk0 V c 0 pt0) (iblk0 V c 1 pt0) (iblk0 V c 2 pt0) (iblk0 V c 3 pt0) (iblk0 V c 4 pt0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := Nat.exists_eq_succ_of_ne_zero hz
    rw [hn, PhiL_succ]
    iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
    iapply (sound_later c Set.univ (grid0.coords t) (fun h => hz ((hcond0 t).mp h)) _ _ _ _ _ _ _ _ _ _ _ _ _ _ _ _
      (iblk0 V c 0 t) (iblk0 V c 1 t) (iblk0 V c 2 t) (iblk0 V c 3 t) (iblk0 V c 4 t) (scr V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsLayer2.lean ====
/-
  Region 1 (the second layer): the body obligation, at any float instance.

  At every point each of the four input windows' staging buffers holds that window's block, fetched at the
  point or not; the body loads the four whole, loads its output buffer once, and stores the payload of the four
  loads over the whole output buffer, so that buffer ends at `resOf` of the four blocks.  The invariant and
  the core's debts pass through unread.
-/
import proofs.«134732_g77695958385289_cont_9to1_m_732_14_alg».proof.Proof.BitsData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers -/

/-- Input window 0's current staging buffer holds its block at every point, fetched there or not: unfetched,
    the block index has not moved; the window is uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not: unfetched,
    the block index has not moved; the window is uncut and never idle. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not: unfetched,
    the block index has not moved; the window is uncut and never idle. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current staging buffer holds its block at every point, fetched there or not: unfetched,
    the block index has not moved; the window is uncut and never idle. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's triple -/

/-- The one store is through the whole output buffer, so it covers it. -/
theorem cover1_4 (p0 : Vec F S400x128 .f32) (y : S400x128.Idx) :
    ∃ pc ∈ ([⟨rBlk, p0⟩] : List (View.Piece (Elt F) S400x128 .f32)), y ∈ pc.1.set :=
  View.cover_of_tiled [⟨rBlk, p0⟩] S400x128.size (by rfl) y

set_option maxHeartbeats 1000000 in
/-- The body on whole staging memrefs, the four inputs' at contents `x0 … x3` and the output's at anything, runs to
    the continuation holding the inputs' as they were and the output's at `resOf x0 x1 x2 x3`. -/
theorem sound_kernel1 (c : Dev nD) (E : Set ℕ) (i : grid1.Coords)
    (arg1 : Memref sig .tc .vmem S400x10000 .f32) (harg1 : arg1.IsWhole)
    (arg2 : Memref sig .tc .vmem S10000x128 .f32) (harg2 : arg2.IsWhole)
    (arg3 : Memref sig .tc .vmem S1x128 .f32) (harg3 : arg3.IsWhole)
    (arg4 : Memref sig .tc .vmem S400x128 .f32) (harg4 : arg4.IsWhole)
    (arg5 : Memref sig .tc .vmem S400x128 .f32) (harg5 : arg5.IsWhole)
    (x0 : Vec F S400x10000 .f32) (x1 : Vec F S10000x128 .f32) (x2 : Vec F S1x128 .f32) (x3 : Vec F S400x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (resOf x0 x1 x2 x3)) -∗ K ⟨⟩))
      ⊢ wp frame (wpE (defs₀ (F := F)) Variants.none c none) E
          (cc1__layer2_kernel i arg1 harg1 arg2 harg2 arg3 harg3 arg4 harg4 arg5 harg5) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
import proofs.«134732_g77695958385289_cont_9to1_m_732_14_alg».proof.Proof.BitsOuts
import proofs.«134732_g77695958385289_cont_9to1_m_732_14_alg».proof.Proof.BitsLayer1
import proofs.«134732_g77695958385289_cont_9to1_m_732_14_alg».proof.Proof.BitsLayer2
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

/-
  The two kernel regions as segments of the program, each entered from the core's unscoped buffers at the
  contents the item before left and left at the contents the next item finds, and the program's frame: it
  runs to the end, nothing faults, and every argument array ends as launched.
-/
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- No core owes another anything: no level is assigned. -/
abbrev Lz : GSem nD τ sig → Finset Unit := fun _ => ∅
abbrev lvz : GSem nD τ sig → Unit → ℕ := fun _ _ => 0

/-- What rides beside the buffers through every item: the generator register at some state, and nothing owed. -/
abbrev Rest (c : Dev nD) : sProp 𝕄 := iprop((∃ r, prngReg c r) ∗ ∃ W, owes (c : Thread nD τ) (0 : CellTallies nD τ sig Unit) W)

/-! ## The contents at each region's exit agree with its proof data -/

theorem exit0_arr (c : Dev nD) (w : Fin cfg0.W) : (dat0 (E0 m) c).arrAt w cfg0.N = E1 m c (Pipeline.arrRef spec0 w) := by
  match w with
  | ⟨0, _⟩ => exact (((dat0 (E0 m) c).arrAt_in 0 rfl _).trans (A_eq0 (E0 m) c 0)).trans (Ve1_of m c main_arg1 (by decide)).symm
  | ⟨1, _⟩ => exact (((dat0 (E0 m) c).arrAt_in 1 rfl _).trans (A_eq0 (E0 m) c 1)).trans (Ve1_of m c main_arg0 (by decide)).symm
  | ⟨2, _⟩ => exact (((dat0 (E0 m) c).arrAt_in 2 rfl _).trans (A_eq0 (E0 m) c 2)).trans (Ve1_of m c main_arg2 (by decide)).symm
  | ⟨3, _⟩ => exact (((dat0 (E0 m) c).arrAt_in 3 rfl _).trans (A_eq0 (E0 m) c 3)).trans (Ve1_of m c main_arg4 (by decide)).symm
  | ⟨4, _⟩ => exact (((dat0 (E0 m) c).arrAt_in 4 rfl _).trans (A_eq0 (E0 m) c 4)).trans (Ve1_of m c main_v0 (by decide)).symm
  | ⟨5, _⟩ => exact (Ve1_hidden m c).symm
  | ⟨6, _⟩ => exact (Ve1_support m c).symm

theorem exit0_rest (c : Dev nD) : ∀ b, b ∉ Finset.univ.image (Pipeline.arrRef spec0) → E1 m c b = E0 m c b := fun b hb =>
  Ve1_of m c b (by
    intro h
    simp only [List.mem_cons, List.mem_nil_iff, or_false] at h
    rcases h with rfl | rfl
    · exact hb (Finset.mem_image.mpr ⟨5, Finset.mem_univ _, rfl⟩)
    · exact hb (Finset.mem_image.mpr ⟨6, Finset.mem_univ _, rfl⟩))

/-- The contents after region 1, read at a reference. -/
abbrev E2 : (c : Dev nD) → (b : Ref sig .tc) → Buf (Elt F) ((c : Thread nD τ).loc b) := fun c b => V3 m (outs m) c b

theorem E2_of (c : Dev nD) (r : Ref sig .tc) (h : r ∉ ([main_v3] : List (Ref sig .tc))) : E2 m c r = E1 m c r :=
  V3_of m (outs m) c r h

theorem exit1_arr (c : Dev nD) (w : Fin cfg1.W) : (dat1 (E1 m) c).arrAt w cfg1.N = E2 m c (Pipeline.arrRef spec1 w) := by
  match w with
  | ⟨0, _⟩ => exact (((dat1 (E1 m) c).arrAt_in 0 rfl _).trans (A_eq1 (E1 m) c 0)).trans (E2_of m c main_arg1 (by decide)).symm
  | ⟨1, _⟩ => exact (((dat1 (E1 m) c).arrAt_in 1 rfl _).trans (A_eq1 (E1 m) c 1)).trans (E2_of m c main_v2_1 (by decide)).symm
  | ⟨2, _⟩ => exact (((dat1 (E1 m) c).arrAt_in 2 rfl _).trans (A_eq1 (E1 m) c 2)).trans (E2_of m c main_v1 (by decide)).symm
  | ⟨3, _⟩ => exact (((dat1 (E1 m) c).arrAt_in 3 rfl _).trans (A_eq1 (E1 m) c 3)).trans (E2_of m c main_v2_0 (by decide)).symm
  | ⟨4, _⟩ => exact (V3_result m c).symm

theorem exit1_rest (c : Dev nD) : ∀ b, b ∉ Finset.univ.image (Pipeline.arrRef spec1) → E2 m c b = E1 m c b := fun b hb =>
  E2_of m c b (by
    intro h
    simp only [List.mem_cons, List.mem_nil_iff, or_false] at h
    rcases h with rfl
    exact hb (Finset.mem_image.mpr ⟨4, Finset.mem_univ _, rfl⟩))

/-! ## The regions as segments -/

set_option backward.isDefEq.respectTransparency.types false in
/-- Region 0: entered from the unscoped buffers after the reshapes, left with the hidden array and the second
    support at what its write-backs leave.  Its invariant takes the scratch at anything and gives it back. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lz lvz 0 fun _ _ => rfl
  pre c := iprop(StableHlo.held (c : Thread nD τ) (Pipeline.ucRefs τ sig) (V1 m c) ∗ Rest c)
  post c := iprop(StableHlo.held (c : Thread nD τ) (Pipeline.ucRefs τ sig) (Ve1 m c) ∗ Rest c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs : (Pipeline.scopedRest (Pipeline.pin (pcfgs (F := F)) adm 0).spec c : sProp 𝕄) = _ := scopedRest0_eq c
    rw [show (pdats m 0 c).Φ 0 = PhiL (E0 m) c 0 from rfl, PhiL_zero, hs]
    simp only [scM, owns_whole]
    unfold others
    iintro ⟨Hp, -, HS, Hoth⟩
    isplitl [HS]; · iexact HS
    isplitl [Hoth]; · iexact Hoth
    iexact Hp
  hout c := by
    have hs : (Pipeline.scopedRest (Pipeline.pin (pcfgs (F := F)) adm 0).spec c : sProp 𝕄) = _ := scopedRest0_eq c
    rw [Pipeline.ownSems0_none, show (pdats m 0 c).Φ (Fin.last _) = PhiL (E0 m) c (24 + 1) from rfl, PhiL_succ, hs]
    simp only [scM, owns_whole]
    unfold others
    iintro ⟨HS, Hoth, Hp⟩
    isplitl [Hp]; · iexact Hp
    isplitr; · iempintro
    isplitl [HS]; · iexists _; iexact HS
    iexact Hoth
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from what region 0 left, left with the result array at what its write-backs leave. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lz lvz 1 fun _ _ => rfl
  pre c := iprop(StableHlo.held (c : Thread nD τ) (Pipeline.ucRefs τ sig) (Ve1 m c) ∗ Rest c)
  post c := iprop(StableHlo.held (c : Thread nD τ) (Pipeline.ucRefs τ sig) (V3 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost element yields the pipelines' cells and nothing else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes its first rest from what the launch deals it. -/
theorem launch_rest (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rest (F := F) c) : sProp 𝕄) := by
  refine Pipeline.initEach Lz lvz fun c => ?_
  iintro ⟨⟨-, HO, -, Hp, -⟩, -⟩
  imodintro
  isplitl [Hp]; · iexists _; iexact Hp
  iexists ∅; iexact HO

set_option backward.isDefEq.respectTransparency.types false in
/-- THE FRAME, at any float instance: from any memory with zero counters every weakly fair execution of the
    program terminates, nothing faulting, and every final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () Variants.none Lz lvz (fun _ _ => rfl) ρ (outs m) (pdats m) 0 (fun _ => (BI.emp : sProp 𝕄))
    (initOf (Pipeline.cells cfgs cellOf_inj) (Pipeline.launchToks cfgs cellOf_inj)) launch_ghost
    (fun _ c => Rest c) (launch_rest ρ) (fun c => by iintro ⟨-, H⟩; iexact H)
    (reg0 m) (fun c => .rfl) (fun c => by rw [V2_eq]; exact .rfl) (reg1 m) (fun c => by rw [V2_eq]; exact .rfl) (fun c => .rfl)

end Cert.Kernel.Hand

end
-- ==== Proof.IdealData.lean ====
/-
  The two kernel regions' proof data, at any float instance and at any contents `V` of the core's buffers when a
  region is entered.

  Region 0 (the first layer) runs 25 points; point t reads rows 400 t … 400 t + 399 of the adjacency array.  At
  its first point the body stores the support  x · W1  into a scratch buffer that every later point reads
  back, so the region's invariant names that buffer's contents from the second point on.  Each point leaves,
  in its two output blocks, the rectified rows of the hidden array and their product with W2.

  Region 1 (the second layer) runs 25 points, each leaving one block of the result: the rectified rows of
  adj · s2 + b2  plus the same rows of the hidden array.
-/
import proofs.«134732_g77695958385289_cont_9to1_m_732_14_alg».proof.Proof.Gen.KernelIdeal.Launch
import proofs.«134732_g77695958385289_cont_9to1_m_732_14_alg».proof.Proof.Gen.KernelIdeal.Skeleton
import proofs.«134732_g77695958385289_cont_9to1_m_732_14_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer rectangles the bodies load and store through -/

abbrev rAdj : Rect S400x10000 := Rect.unit (s := S400x10000) ![0, 0] S400x10000.size inb_S400x10000_S400x10000_0_0
abbrev rFeat : Rect S10000x128 := Rect.unit (s := S10000x128) ![0, 0] S10000x128.size inb_S10000x128_S10000x128_0_0
abbrev rSq : Rect S128x128 := Rect.unit (s := S128x128) ![0, 0] S128x128.size inb_S128x128_S128x128_0_0
abbrev rRow : Rect S1x128 := Rect.unit (s := S1x128) ![0, 0] S1x128.size inb_S1x128_S1x128_0_0
abbrev rBlk : Rect S400x128 := Rect.unit (s := S400x128) ![0, 0] S400x128.size inb_S400x128_S400x128_0_0

/-! ## What a body leaves in a buffer, from what it loaded -/

/-- The scratch after the first point's store: the support of the features `x2` under the weights `x3`. -/
def scrOf (x2 : Vec F S10000x128 .f32) (x3 : Vec F S128x128 .f32) : Vec F S10000x128 .f32 :=
  View.canon [⟨rFeat, k0_pay1 (View.ld x2 rFeat) (View.ld x3 rSq)⟩]

/-- Region 0's first output block: the rectified rows, from the adjacency rows `x1`, the support `s` and the bias row `x5`. -/
def hidOf (x1 : Vec F S400x10000 .f32) (s : Vec F S10000x128 .f32) (x5 : Vec F S1x128 .f32) : Vec F S400x128 .f32 :=
  View.canon [⟨rBlk, k0_pay2 (View.ld x1 rAdj) (View.ld s rFeat) (View.ld x5 rRow)⟩]

/-- Region 0's second output block: those rows times the second weights `x4`. -/
def sup2Of (x1 : Vec F S400x10000 .f32) (s : Vec F S10000x128 .f32) (x5 : Vec F S1x128 .f32) (x4 : Vec F S128x128 .f32) :
    Vec F S400x128 .f32 :=
  View.canon [⟨rBlk, k0_pay3 (View.ld x1 rAdj) (View.ld s rFeat) (View.ld x5 rRow) (View.ld x4 rSq)⟩]

/-- Region 1's output block, from the adjacency rows `x0`, the second support `x1`, the bias row `x2` and the
    hidden rows `x3`. -/
def resOf (x0 : Vec F S400x10000 .f32) (x1 : Vec F S10000x128 .f32) (x2 : Vec F S1x128 .f32) (x3 : Vec F S400x128 .f32) :
    Vec F S400x128 .f32 :=
  View.canon [⟨rBlk, k1_pay1 (View.ld x0 rAdj) (View.ld x1 rFeat) (View.ld x2 rRow) (View.ld x3 rBlk)⟩]

/-! ## The windows' blocks -/

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 0's first point. -/
abbrev pt0 : Fin cfg0.N := ⟨0, by decide⟩

/-- The support the first point stores: every later point finds it in the scratch. -/
def scr (c : Dev nD) : Vec F S10000x128 .f32 := scrOf (iblk0 V c 1 pt0) (iblk0 V c 2 pt0)

/-- The hidden rows point `t` leaves. -/
def hidAt (c : Dev nD) (t : Fin cfg0.N) : Vec F S400x128 .f32 := hidOf (iblk0 V c 0 t) (scr V c) (iblk0 V c 4 t)

/-- The second support's rows point `t` leaves. -/
def sup2At (c : Dev nD) (t : Fin cfg0.N) : Vec F S400x128 .f32 :=
  sup2Of (iblk0 V c 0 t) (scr V c) (iblk0 V c 4 t) (iblk0 V c 3 t)

/-- The result rows point `t` of region 1 leaves. -/
def resAt (c : Dev nD) (t : Fin cfg1.N) : Vec F S400x128 .f32 :=
  resOf (iblk1 V c 0 t) (iblk1 V c 1 t) (iblk1 V c 2 t) (iblk1 V c 3 t)

/-! ## Region 0's invariant: the scratch between points -/

/-- The scratch as a memref. -/
abbrev scM : Memref sig .tc .vmem S10000x128 .f32 := Memref.whole cc0_scratch0

/-- The core's scoped buffers that are neither region 0's staging buffers nor its scratch (region 1's staging
    buffers), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The scratch before position `n`: anything before the first point, the support afterwards. -/
def scrAt (c : Dev nD) : ℕ → sProp 𝕄
  | 0 => iprop(∃ d, owns (c : Thread nD τ) scM fullShare d)
  | _ + 1 => owns (c : Thread nD τ) scM fullShare (scr V c)

/-- Region 0's invariant before position `n`. -/
def PhiL (c : Dev nD) (n : ℕ) : sProp 𝕄 :=
  iprop(scrAt V c n ∗ others (F := F) c ∗ (∃ r, prngReg c r))

/-! ## The proof data -/

/-- Region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hidAt V c t
    | ⟨6, _⟩ => sup2At V c t
  Φ t := PhiL V c t.val
  q _ := fullShare
  owed _ := 0

/-- Region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => resAt V c t
  Φ _ := Pipeline.ΦA spec1 c
  q _ := fullShare
  owed _ := 0

theorem A_eq0 (c : Dev nD) (w : Fin cfg0.W) : (dat0 V c).A w = V c (Pipeline.arrRef spec0 w) := by
  dsimp only [dat0]
theorem A_eq1 (c : Dev nD) (w : Fin cfg1.W) : (dat1 V c).A w = V c (Pipeline.arrRef spec1 w) := by
  dsimp only [dat1]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = hidAt V c t := by dsimp only [dat0]
theorem after0_6 (c : Dev nD) (t : Fin cfg0.N) : (dat0 V c).after 6 t = sup2At V c t := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = resAt V c t := by dsimp only [dat1]

end Cert.KernelIdeal.Hand

end
-- ==== Proof.IdealOuts.lean ====
import proofs.«134732_g77695958385289_cont_9to1_m_732_14_alg».proof.Proof.IdealData
import proofs.«134732_g77695958385289_cont_9to1_m_732_14_alg».proof.Proof.Gen.KernelIdeal.Regions
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The core's buffer contents between the items of the program, from the launch memory `m`: after the two host
  reshapes (region 0's entry), after region 0 (its two output arrays at what its write-backs leave: region 1's
  entry), after region 1 (the result array at what its write-backs leave).
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 0's entry contents, read at a reference: the launch memory after the two reshapes of the bias vectors. -/
abbrev E0 : (c : Dev nD) → (b : Ref sig .tc) → Buf (Elt F) ((c : Thread nD τ).loc b) := fun c b => V1 m c b

/-- After region 0: its arrays at what the pipeline leaves, every other buffer as entered. -/
def W2 (c : Dev nD) : Valuation τ sig (Elt F) :=
  Pipeline.withArrays spec0 c (V1 m c) fun w => (dat0 (E0 m) c).arrAt w cfg0.N

theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w

/-- Region 1's entry contents: region 0's entry contents with the hidden array and the second support at what
    region 0 left. -/
def Ve1 (c : Dev nD) : Valuation τ sig (Elt F) :=
  Function.update (Function.update (V1 m c) main_v2_0 (W2 m c main_v2_0)) main_v2_1 (W2 m c main_v2_1)

abbrev E1 : (c : Dev nD) → (b : Ref sig .tc) → Buf (Elt F) ((c : Thread nD τ).loc b) := fun c b => Ve1 m c b

/-- After region 1. -/
def W4 (c : Dev nD) : Valuation τ sig (Elt F) :=
  Pipeline.withArrays spec1 c (Ve1 m c) fun w => (dat1 (E1 m) c).arrAt w cfg1.N

theorem W4_arr (c : Dev nD) (w : Fin cfg1.W) :
    W4 m c (Proc.devRef .tc (Pipeline.arrRef spec1 w)) = (dat1 (E1 m) c).arrAt w cfg1.N := by
  unfold W4; exact Pipeline.withArrays_arr spec1 launch1.win.arr_inj c _ _ w

/-- What the regions leave in the buffers they may change, item by item. -/
def outs : Outs (F := F) := fun n r c => if n = 2 then W2 m c r else W4 m c r

theorem outs_two (r : Ref sig .tc) (c : Dev nD) : outs m 2 r c = W2 m c r := rfl
theorem outs_three (r : Ref sig .tc) (c : Dev nD) : outs m 3 r c = W4 m c r := rfl

/-- The generated valuation after region 0 is region 1's entry contents. -/
theorem V2_eq (c : Dev nD) : V2 m (outs m) c = Ve1 m c := rfl

/-- The hidden array after region 0. -/
theorem Ve1_hidden (c : Dev nD) : E1 m c main_v2_0 = (dat0 (E0 m) c).arrAt 5 cfg0.N := by
  show Function.update (Function.update (V1 m c) main_v2_0 (W2 m c main_v2_0)) main_v2_1 (W2 m c main_v2_1) main_v2_0 = _
  rw [Function.update_of_ne (StableHlo.devRef_ne_of_ne (by decide) : (Proc.devRef .tc main_v2_0 : DevRef τ sig) ≠ Proc.devRef .tc main_v2_1), Function.update_self]
  exact W2_arr m c 5

/-- The second support after region 0. -/
theorem Ve1_support (c : Dev nD) : E1 m c main_v2_1 = (dat0 (E0 m) c).arrAt 6 cfg0.N := by
  show Function.update (Function.update (V1 m c) main_v2_0 (W2 m c main_v2_0)) main_v2_1 (W2 m c main_v2_1) main_v2_1 = _
  rw [Function.update_self]
  exact W2_arr m c 6

/-- Every other buffer is as region 0 was entered. -/
theorem Ve1_of (c : Dev nD) (r : Ref sig .tc) (h : r ∉ ([main_v2_0, main_v2_1] : List (Ref sig .tc))) : E1 m c r = E0 m c r :=
  (congrFun (V2_eq m c).symm _).trans (V2_of m (outs m) c r h)

/-- The result array after region 1. -/
theorem V3_result (c : Dev nD) : V3 m (outs m) c main_v3 = (dat1 (E1 m) c).arrAt 4 cfg1.N := by
  show Function.update (V2 m (outs m) c) main_v3 (outs m 3 main_v3 c) main_v3 = _
  rw [Function.update_self]
  exact W4_arr m c 4

end Cert.KernelIdeal.Hand

end
-- ==== Proof.IdealLayer1.lean ====
import proofs.«134732_g77695958385289_cont_9to1_m_732_14_alg».proof.Proof.IdealData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch: taken at the first point only -/

/-- The condition of the body's branch, as the body computes it from the grid coordinate. -/
abbrev cond0 (i : grid0.Coords) : Prop := (Scalar.cmpi .ne (Scalar.extui (Scalar.cmpi .eq (BitVec.ofNat 32 (i 0).val) 0#32)) 0#32) = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

/-! ## The stores cover their buffers -/

theorem coverBlk (p0 : Vec F S400x128 .f32) (y : S400x128.Idx) :
    ∃ pc ∈ ([⟨rBlk, p0⟩] : List (View.Piece (Elt F) S400x128 .f32)), y ∈ pc.1.set :=
  View.cover_of_tiled [⟨rBlk, p0⟩] S400x128.size (by rfl) y

theorem coverFeat (p0 : Vec F S10000x128 .f32) (y : S10000x128.Idx) :
    ∃ pc ∈ ([⟨rFeat, p0⟩] : List (View.Piece (Elt F) S10000x128 .f32)), y ∈ pc.1.set :=
  View.cover_of_tiled [⟨rFeat, p0⟩] S10000x128.size (by rfl) y

/-! ## The body on whole memrefs -/

set_option maxHeartbeats 2000000 in
/-- At a point that is not the first the body finds the support `s` in its scratch, leaves every input and the
    scratch as found, and stores the two output blocks. -/
theorem sound_later (c : Dev nD) (E : Set ℕ) (i : grid0.Coords) (hc : ¬cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S400x128 .f32) (harg7 : arg7.IsWhole) (arg8 : Memref sig .tc .vmem S10000x128 .f32) (harg8 : arg8.IsWhole)
    (x1 : Vec F S400x10000 .f32) (x2 : Vec F S10000x128 .f32) (x3 x4 : Vec F S128x128 .f32) (x5 : Vec F S1x128 .f32) (s : Vec F S10000x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ owns (c : Thread nD τ) arg8 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (hidOf x1 s x5) ∗ owns (c : Thread nD τ) arg7 fullShare (sup2Of x1 s x5 x4) ∗ owns (c : Thread nD τ) arg8 fullShare s) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  subst hf1; subst hf2; subst hf3; subst hf4; subst hf5; subst hf8
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverBlk _)
  isplitl [H7]
  · iexists _; isplitr
    swap; · iexact H7
    ipureintro
    exact View.read_writes_eq_canon _ _ _ (coverBlk _)
  iexists f8; isplitr; · ipureintro; rfl
  iexact H8

set_option maxHeartbeats 2000000 in
/-- At the first point the body finds anything in its scratch, stores the support of the features under the
    first weights there, and goes on as at every point. -/
theorem sound_first (c : Dev nD) (E : Set ℕ) (i : grid0.Coords) (hc : cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S400x128 .f32) (harg7 : arg7.IsWhole) (arg8 : Memref sig .tc .vmem S10000x128 .f32) (harg8 : arg8.IsWhole)
    (x1 : Vec F S400x10000 .f32) (x2 : Vec F S10000x128 .f32) (x3 x4 : Vec F S128x128 .f32) (x5 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (hidOf x1 (scrOf x2 x3) x5) ∗ owns (c : Thread nD τ) arg7 fullShare (sup2Of x1 (scrOf x2 x3) x5 x4) ∗ owns (c : Thread nD τ) arg8 fullShare (scrOf x2 x3)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  sl_unfold_words
  rw [View.readCov_eq_canon_ld _ _ _ (coverFeat _)]
  isplitl [H6]
  · iexists _; isplitr
    swap; · iexact H6
    ipureintro
    exact View.read_writes_eq_canon _ _ _ (coverBlk _)
  isplitl [H7]
  · iexists _; isplitr
    swap; · iexact H7
    ipureintro
    exact View.read_writes_eq_canon _ _ _ (coverBlk _)
  iexists _; isplitr
  swap; · iexact H8
  ipureintro
  exact View.read_writes_eq_canon _ _ _ (coverFeat _)

variable (V : (c : Dev nD) → (b : Ref sig .tc) → Buf (Elt F) ((c : Thread nD τ).loc b))

/-! ## What the body finds in the input windows' buffers: their blocks, fetched at the point or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The scratch holds the support before every position but the first. -/
theorem PhiL_succ (c : Dev nD) (n : ℕ) :
    PhiL V c (n + 1) = iprop(owns (c : Thread nD τ) scM fullShare (scr V c) ∗ others (F := F) c ∗ (∃ r, prngReg c r)) := rfl

theorem PhiL_zero (c : Dev nD) :
    PhiL V c 0 = iprop((∃ d, owns (c : Thread nD τ) scM fullShare d) ∗ others (F := F) c ∗ (∃ r, prngReg c r)) := rfl

set_option maxHeartbeats 4000000 in
/-- The body at any point: the inputs' buffers hold their blocks; at the first point the scratch holds anything and
    the body stores the support into it, at every later point it holds the support and the body leaves it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.castSucc = PhiL V c t.val from rfl,
    show (dat0 V c).Φ t.succ = PhiL V c (t.val + 1) from rfl,
    after0_0, after0_1, after0_2, after0_3, after0_4, after0_5, after0_6, PhiL_succ]
  by_cases hz : t.val = 0
  · obtain rfl : t = pt0 := Fin.ext hz
    rw [show PhiL V c (pt0 : Fin cfg0.N).val = PhiL V c 0 from rfl, PhiL_zero]
    iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
    iapply (sound_first c Set.univ (grid0.coords pt0) ((hcond0 pt0).mpr rfl) _ _ _ _ _ _ _ _ _ _ _ _ _ _ _ _
      (iblk0 V c 0 pt0) (iblk0 V c 1 pt0) (iblk0 V c 2 pt0) (iblk0 V c 3 pt0) (iblk0 V c 4 pt0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := Nat.exists_eq_succ_of_ne_zero hz
    rw [hn, PhiL_succ]
    iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
    iapply (sound_later c Set.univ (grid0.coords t) (fun h => hz ((hcond0 t).mp h)) _ _ _ _ _ _ _ _ _ _ _ _ _ _ _ _
      (iblk0 V c 0 t) (iblk0 V c 1 t) (iblk0 V c 2 t) (iblk0 V c 3 t) (iblk0 V c 4 t) (scr V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealLayer2.lean ====
/-
  Region 1 (the second layer): the body obligation, at any float instance.

  At every point each of the four input windows' staging buffers holds that window's block, fetched at the
  point or not; the body loads the four whole, loads its output buffer once, and stores the payload of the four
  loads over the whole output buffer, so that buffer ends at `resOf` of the four blocks.  The invariant and
  the core's debts pass through unread.
-/
import proofs.«134732_g77695958385289_cont_9to1_m_732_14_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers -/

/-- Input window 0's current staging buffer holds its block at every point, fetched there or not: unfetched,
    the block index has not moved; the window is uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not: unfetched,
    the block index has not moved; the window is uncut and never idle. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not: unfetched,
    the block index has not moved; the window is uncut and never idle. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current staging buffer holds its block at every point, fetched there or not: unfetched,
    the block index has not moved; the window is uncut and never idle. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's triple -/

/-- The one store is through the whole output buffer, so it covers it. -/
theorem cover1_4 (p0 : Vec F S400x128 .f32) (y : S400x128.Idx) :
    ∃ pc ∈ ([⟨rBlk, p0⟩] : List (View.Piece (Elt F) S400x128 .f32)), y ∈ pc.1.set :=
  View.cover_of_tiled [⟨rBlk, p0⟩] S400x128.size (by rfl) y

set_option maxHeartbeats 1000000 in
/-- The body on whole staging memrefs, the four inputs' at contents `x0 … x3` and the output's at anything, runs to
    the continuation holding the inputs' as they were and the output's at `resOf x0 x1 x2 x3`. -/
theorem sound_kernel1 (c : Dev nD) (E : Set ℕ) (i : grid1.Coords)
    (arg1 : Memref sig .tc .vmem S400x10000 .f32) (harg1 : arg1.IsWhole)
    (arg2 : Memref sig .tc .vmem S10000x128 .f32) (harg2 : arg2.IsWhole)
    (arg3 : Memref sig .tc .vmem S1x128 .f32) (harg3 : arg3.IsWhole)
    (arg4 : Memref sig .tc .vmem S400x128 .f32) (harg4 : arg4.IsWhole)
    (arg5 : Memref sig .tc .vmem S400x128 .f32) (harg5 : arg5.IsWhole)
    (x0 : Vec F S400x10000 .f32) (x1 : Vec F S10000x128 .f32) (x2 : Vec F S1x128 .f32) (x3 : Vec F S400x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (resOf x0 x1 x2 x3)) -∗ K ⟨⟩))
      ⊢ wp frame (wpE (defs₀ (F := F)) Variants.none c none) E
          (cc1__layer2_kernel i arg1 harg1 arg2 harg2 arg3 harg3 arg4 harg4 arg5 harg5) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
import proofs.«134732_g77695958385289_cont_9to1_m_732_14_alg».proof.Proof.IdealOuts
import proofs.«134732_g77695958385289_cont_9to1_m_732_14_alg».proof.Proof.IdealLayer1
import proofs.«134732_g77695958385289_cont_9to1_m_732_14_alg».proof.Proof.IdealLayer2
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

/-
  The two kernel regions as segments of the program, each entered from the core's unscoped buffers at the
  contents the item before left and left at the contents the next item finds, and the program's frame: it
  runs to the end, nothing faults, and every argument array ends as launched.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- No core owes another anything: no level is assigned. -/
abbrev Lz : GSem nD τ sig → Finset Unit := fun _ => ∅
abbrev lvz : GSem nD τ sig → Unit → ℕ := fun _ _ => 0

/-- What rides beside the buffers through every item: the generator register at some state, and nothing owed. -/
abbrev Rest (c : Dev nD) : sProp 𝕄 := iprop((∃ r, prngReg c r) ∗ ∃ W, owes (c : Thread nD τ) (0 : CellTallies nD τ sig Unit) W)

/-! ## The contents at each region's exit agree with its proof data -/

theorem exit0_arr (c : Dev nD) (w : Fin cfg0.W) : (dat0 (E0 m) c).arrAt w cfg0.N = E1 m c (Pipeline.arrRef spec0 w) := by
  match w with
  | ⟨0, _⟩ => exact (((dat0 (E0 m) c).arrAt_in 0 rfl _).trans (A_eq0 (E0 m) c 0)).trans (Ve1_of m c main_arg1 (by decide)).symm
  | ⟨1, _⟩ => exact (((dat0 (E0 m) c).arrAt_in 1 rfl _).trans (A_eq0 (E0 m) c 1)).trans (Ve1_of m c main_arg0 (by decide)).symm
  | ⟨2, _⟩ => exact (((dat0 (E0 m) c).arrAt_in 2 rfl _).trans (A_eq0 (E0 m) c 2)).trans (Ve1_of m c main_arg2 (by decide)).symm
  | ⟨3, _⟩ => exact (((dat0 (E0 m) c).arrAt_in 3 rfl _).trans (A_eq0 (E0 m) c 3)).trans (Ve1_of m c main_arg4 (by decide)).symm
  | ⟨4, _⟩ => exact (((dat0 (E0 m) c).arrAt_in 4 rfl _).trans (A_eq0 (E0 m) c 4)).trans (Ve1_of m c main_v0 (by decide)).symm
  | ⟨5, _⟩ => exact (Ve1_hidden m c).symm
  | ⟨6, _⟩ => exact (Ve1_support m c).symm

theorem exit0_rest (c : Dev nD) : ∀ b, b ∉ Finset.univ.image (Pipeline.arrRef spec0) → E1 m c b = E0 m c b := fun b hb =>
  Ve1_of m c b (by
    intro h
    simp only [List.mem_cons, List.mem_nil_iff, or_false] at h
    rcases h with rfl | rfl
    · exact hb (Finset.mem_image.mpr ⟨5, Finset.mem_univ _, rfl⟩)
    · exact hb (Finset.mem_image.mpr ⟨6, Finset.mem_univ _, rfl⟩))

/-- The contents after region 1, read at a reference. -/
abbrev E2 : (c : Dev nD) → (b : Ref sig .tc) → Buf (Elt F) ((c : Thread nD τ).loc b) := fun c b => V3 m (outs m) c b

theorem E2_of (c : Dev nD) (r : Ref sig .tc) (h : r ∉ ([main_v3] : List (Ref sig .tc))) : E2 m c r = E1 m c r :=
  V3_of m (outs m) c r h

theorem exit1_arr (c : Dev nD) (w : Fin cfg1.W) : (dat1 (E1 m) c).arrAt w cfg1.N = E2 m c (Pipeline.arrRef spec1 w) := by
  match w with
  | ⟨0, _⟩ => exact (((dat1 (E1 m) c).arrAt_in 0 rfl _).trans (A_eq1 (E1 m) c 0)).trans (E2_of m c main_arg1 (by decide)).symm
  | ⟨1, _⟩ => exact (((dat1 (E1 m) c).arrAt_in 1 rfl _).trans (A_eq1 (E1 m) c 1)).trans (E2_of m c main_v2_1 (by decide)).symm
  | ⟨2, _⟩ => exact (((dat1 (E1 m) c).arrAt_in 2 rfl _).trans (A_eq1 (E1 m) c 2)).trans (E2_of m c main_v1 (by decide)).symm
  | ⟨3, _⟩ => exact (((dat1 (E1 m) c).arrAt_in 3 rfl _).trans (A_eq1 (E1 m) c 3)).trans (E2_of m c main_v2_0 (by decide)).symm
  | ⟨4, _⟩ => exact (V3_result m c).symm

theorem exit1_rest (c : Dev nD) : ∀ b, b ∉ Finset.univ.image (Pipeline.arrRef spec1) → E2 m c b = E1 m c b := fun b hb =>
  E2_of m c b (by
    intro h
    simp only [List.mem_cons, List.mem_nil_iff, or_false] at h
    rcases h with rfl
    exact hb (Finset.mem_image.mpr ⟨4, Finset.mem_univ _, rfl⟩))

/-! ## The regions as segments -/

set_option backward.isDefEq.respectTransparency.types false in
/-- Region 0: entered from the unscoped buffers after the reshapes, left with the hidden array and the second
    support at what its write-backs leave.  Its invariant takes the scratch at anything and gives it back. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lz lvz 0 fun _ _ => rfl
  pre c := iprop(StableHlo.held (c : Thread nD τ) (Pipeline.ucRefs τ sig) (V1 m c) ∗ Rest c)
  post c := iprop(StableHlo.held (c : Thread nD τ) (Pipeline.ucRefs τ sig) (Ve1 m c) ∗ Rest c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs : (Pipeline.scopedRest (Pipeline.pin (pcfgs (F := F)) adm 0).spec c : sProp 𝕄) = _ := scopedRest0_eq c
    rw [show (pdats m 0 c).Φ 0 = PhiL (E0 m) c 0 from rfl, PhiL_zero, hs]
    simp only [scM, owns_whole]
    unfold others
    iintro ⟨Hp, -, HS, Hoth⟩
    isplitl [HS]; · iexact HS
    isplitl [Hoth]; · iexact Hoth
    iexact Hp
  hout c := by
    have hs : (Pipeline.scopedRest (Pipeline.pin (pcfgs (F := F)) adm 0).spec c : sProp 𝕄) = _ := scopedRest0_eq c
    rw [Pipeline.ownSems0_none, show (pdats m 0 c).Φ (Fin.last _) = PhiL (E0 m) c (24 + 1) from rfl, PhiL_succ, hs]
    simp only [scM, owns_whole]
    unfold others
    iintro ⟨HS, Hoth, Hp⟩
    isplitl [Hp]; · iexact Hp
    isplitr; · iempintro
    isplitl [HS]; · iexists _; iexact HS
    iexact Hoth
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from what region 0 left, left with the result array at what its write-backs leave. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lz lvz 1 fun _ _ => rfl
  pre c := iprop(StableHlo.held (c : Thread nD τ) (Pipeline.ucRefs τ sig) (Ve1 m c) ∗ Rest c)
  post c := iprop(StableHlo.held (c : Thread nD τ) (Pipeline.ucRefs τ sig) (V3 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost element yields the pipelines' cells and nothing else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes its first rest from what the launch deals it. -/
theorem launch_rest (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rest (F := F) c) : sProp 𝕄) := by
  refine Pipeline.initEach Lz lvz fun c => ?_
  iintro ⟨⟨-, HO, -, Hp, -⟩, -⟩
  imodintro
  isplitl [Hp]; · iexists _; iexact Hp
  iexists ∅; iexact HO

set_option backward.isDefEq.respectTransparency.types false in
/-- THE FRAME, at any float instance: from any memory with zero counters every weakly fair execution of the
    program terminates, nothing faulting, and every final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () Variants.none Lz lvz (fun _ _ => rfl) ρ (outs m) (pdats m) 0 (fun _ => (BI.emp : sProp 𝕄))
    (initOf (Pipeline.cells cfgs cellOf_inj) (Pipeline.launchToks cfgs cellOf_inj)) launch_ghost
    (fun _ c => Rest c) (launch_rest ρ) (fun c => by iintro ⟨-, H⟩; iexact H)
    (reg0 m) (fun c => .rfl) (fun c => by rw [V2_eq]; exact .rfl) (reg1 m) (fun c => by rw [V2_eq]; exact .rfl) (fun c => .rfl)

end Cert.KernelIdeal.Hand

end
-- ==== Proof.IdealRunCond.lean ====
/-
  The run of the whole program from the two kernel regions' segment records.

  Given, for each of the two regions, a segment record entered from the thread state before it and left at the
  one after it, every weakly fair execution of the main function from a memory with zero counters terminates, and
  in every final memory the result array holds what the second region is said to leave in it and every argument
  array holds what it held at launch.
-/
import proofs.«134732_g77695958385289_cont_9to1_m_732_14_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- For any user algebra, level assignment, launch dues and ghost resources, any rest states `E` the launch makes
    on every core at once (`hE0`) and that end owing nothing (`hE2`), any contents the regions leave (`outs`) and
    any proof data: given, per region, a segment record entered from the thread state before it and left at the one
    after it, every weakly fair execution of the main function from memory `m` with zero counters terminates, and
    every final memory holds the result array at the last valuation's entry for it and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v3) = V3 m outs c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨.rfl, hpre0 c, (hpost0 c).trans (hpre1 c), (hpost1 c).trans (sep_mono .rfl (hE2 c))⟩)
    (hinit := ?_) (QY := fun c s => s.mem ((c.tc : Thread nD τ).loc main_v3) = V3 m outs c main_v3 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result array's and each argument's buffer read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c),
        (h (Proc.devRef .tc main_arg4) (Finset.mem_filter.mpr ⟨StableHlo.devRef_mem_tcRefs main_arg4, by decide⟩)).trans (V3_main_arg4 m outs c),
        (h (Proc.devRef .tc main_arg5) (Finset.mem_filter.mpr ⟨StableHlo.devRef_mem_tcRefs main_arg5, by decide⟩)).trans (V3_main_arg5 m outs c)⟩
    · iexact HSI

end Cert.KernelIdeal.Hand

end
-- ==== Proof.IdealRunValue.lean ====
import proofs.«134732_g77695958385289_cont_9to1_m_732_14_alg».proof.Proof.IdealRun
import proofs.«134732_g77695958385289_cont_9to1_m_732_14_alg».proof.Proof.IdealRunCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The program's run with its result named: besides the frame, every final memory holds the result array at
  what region 1's write-backs leave.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run (ρ : Dev nD → PrngReg) :
    θ_run defs (onTc (τ := τ) (main (F := F))) ⟨m, fun _ => 0, ρ⟩ (fun r => ∀ c : Dev nD,
      r.2.mem ((c.tc : Thread nD τ).loc main_v3) = V3 m (outs m) c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () Variants.none Lz lvz (fun _ _ => rfl) ρ (outs m) (pdats m) 0 (fun _ => (BI.emp : sProp 𝕄))
    (initOf (Pipeline.cells cfgs cellOf_inj) (Pipeline.launchToks cfgs cellOf_inj)) launch_ghost
    (fun _ c => Rest c) (launch_rest ρ) (fun c => by iintro ⟨-, H⟩; iexact H)
    (reg0 m) (fun c => .rfl) (fun c => by rw [V2_eq]; exact .rfl) (reg1 m) (fun c => by rw [V2_eq]; exact .rfl) (fun c => .rfl)

end Cert.KernelIdeal.Hand

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Spec.lean ====
/-
  The two-layer graph convolution as one function of its six argument arrays, index by index, on the
  extended reals.  With  support x W (r, c) = ∑ k, x (r, k) * W (k, c),  a layer is
      layer adj s b (r, c) = max (∑ k, adj (r, k) * s (k, c) + b c) 0,
  the hidden array is  hidden = layer adj (support x W1) b1  and the result is
      result (r, c) = layer adj (support hidden W2) b2 (r, c) + hidden (r, c).
  The bias vector enters a layer as a one-row array, as both programs hold it.
-/
import Idealize.ShloMosaic.Lib.ValueIdx
import Idealize.ShloMosaic.PureOps.Ideal.Laws
import proofs.«134732_g77695958385289_cont_9to1_m_732_14_alg».proof.Proof.LibPlainDot

noncomputable section

namespace Cert.Spec

open Idealize.ShloMosaic Idealize.ShloMosaic.ValueIdx Cert.PlainDot

/-- The matrix product of a `M × K` array and a `K × N` array, entry by entry. -/
def support {M K N : Nat} (x : (⟨2, ![M, K]⟩ : Shape).Idx → EReal) (W : (⟨2, ![K, N]⟩ : Shape).Idx → EReal) :
    (⟨2, ![M, N]⟩ : Shape).Idx → EReal :=
  fun j => ∑ k : Fin K, x (ix2 (j 0) k) * W (ix2 k (j 1))

/-- A vector of length `N` as a one-row array. -/
def row {N : Nat} (b : (⟨1, ![N]⟩ : Shape).Idx → EReal) : (⟨2, ![1, N]⟩ : Shape).Idx → EReal :=
  fun j => b (ix1 (j 1))

/-- The hidden array: the first layer, rectified. -/
def hidden (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal) :
    (⟨2, ![10000, 128]⟩ : Shape).Idx → EReal :=
  affineRelu adj (support x W1) (row b1)

/-- The result: the second layer, rectified, plus the hidden array. -/
def result (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![10000, 128]⟩ : Shape).Idx → EReal :=
  fun j => affineRelu adj (support (hidden x adj W1 b1) W2) (row b2) j + hidden x adj W1 b1 j

end Cert.Spec

end
-- ==== Proof.IdealValue.lean ====
/-
  What the two kernel regions leave in their output arrays, as whole-array functions on the extended reals.

  With  support x W (r, c) = ∑ k, x (r, k) * W (k, c)  and  affineRelu a s b (r, c) = max (∑ k, a (r, k) * s (k, c) + b (0, c)) 0:
  the scratch buffer holds  support x W1  from the first point on; region 0 ends with the hidden array
  affineRelu adj (support x W1) b1  in its first output and that array's support under W2 in its second;
  region 1 ends with  affineRelu adj s2 b2 + hidden  in its output.  Each is proved block by block: a block's
  rows 400 t … 400 t + 399 of a row-wise product are the product of the block's rows, and the 25 blocks cover
  the 10000 rows.
-/
import proofs.«134732_g77695958385289_cont_9to1_m_732_14_alg».proof.Proof.IdealData
import proofs.«134732_g77695958385289_cont_9to1_m_732_14_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Cert.PlainDot Cert.Spec
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The payloads on the extended reals -/

/-- The zero offsets, however spelt. -/
theorem hz : (![0, 0] : Fin 2 → Nat) = fun _ => 0 := funext fun a => by fin_cases a <;> rfl

/-- The three contractions are plain matrix products. -/
theorem dot1_eq : dot_S10000x128_S128x128_S10000x128_1_0_0_1_n_n = DotDims.plain 10000 128 128 := rfl
theorem dot2_eq : dot_S400x10000_S10000x128_S400x128_1_0_0_1_n_n = DotDims.plain 400 10000 128 := rfl
theorem dot3_eq : dot_S400x128_S128x128_S400x128_1_0_0_1_n_n = DotDims.plain 400 128 128 := rfl

/-- The first point's product into a zero accumulator is the support. -/
theorem pay1_eq (x : Vec Ideal S10000x128 .f32) (w : Vec Ideal S128x128 .f32) :
    k0_pay1 x w = support (M := 10000) (K := 128) (N := 128) x w := by
  unfold k0_pay1
  dsimp only
  rw [shapeCast_self]
  funext j
  rw [dot1_eq]
  exact matmul_zero_apply none x w j

/-- A block's product plus the bias row, rectified. -/
theorem pay2_eq (a : Vec Ideal S400x10000 .f32) (s : Vec Ideal S10000x128 .f32) (b : Vec Ideal S1x128 .f32) :
    k0_pay2 a s b = affineRelu (M := 400) (K := 10000) (N := 128) a s b := by
  unfold k0_pay2
  dsimp only
  rw [shapeCast_self, dot2_eq]
  exact matmul_add_row_max_eq none a s b _

/-- Those rows times the second weights. -/
theorem pay3_eq (a : Vec Ideal S400x10000 .f32) (s : Vec Ideal S10000x128 .f32) (b : Vec Ideal S1x128 .f32) (w : Vec Ideal S128x128 .f32) :
    k0_pay3 a s b w = support (M := 400) (K := 128) (N := 128) (affineRelu (M := 400) (K := 10000) (N := 128) a s b) w := by
  unfold k0_pay3
  dsimp only
  rw [pay2_eq, dot3_eq]
  funext j
  exact matmul_zero_apply none _ w j

/-- The second layer's rectified rows plus the hidden rows. -/
theorem pay4_eq (a : Vec Ideal S400x10000 .f32) (s : Vec Ideal S10000x128 .f32) (b : Vec Ideal S1x128 .f32) (h : Vec Ideal S400x128 .f32) :
    k1_pay1 a s b h = fun j => affineRelu (M := 400) (K := 10000) (N := 128) a s b j + h j := by
  unfold k1_pay1
  dsimp only
  rw [shapeCast_self, shapeCast_self, shapeCast_self, dot2_eq, matmul_add_row_max_eq none a s b _]
  rfl

/-! ## What a body leaves, from what it loaded -/

theorem scrOf_eq (x : Vec Ideal S10000x128 .f32) (w : Vec Ideal S128x128 .f32) :
    scrOf x w = support (M := 10000) (K := 128) (N := 128) x w := by
  unfold scrOf
  rw [View.canon_unit_zero hz]
  simp only [View.ld_unit_zero (S := S10000x128) hz, View.ld_unit_zero (S := S128x128) hz]
  exact pay1_eq x w

theorem hidOf_eq (a : Vec Ideal S400x10000 .f32) (s : Vec Ideal S10000x128 .f32) (b : Vec Ideal S1x128 .f32) :
    hidOf a s b = affineRelu (M := 400) (K := 10000) (N := 128) a s b := by
  unfold hidOf
  rw [View.canon_unit_zero hz]
  simp only [View.ld_unit_zero (S := S400x10000) hz, View.ld_unit_zero (S := S10000x128) hz, View.ld_unit_zero (S := S1x128) hz]
  exact pay2_eq a s b

theorem sup2Of_eq (a : Vec Ideal S400x10000 .f32) (s : Vec Ideal S10000x128 .f32) (b : Vec Ideal S1x128 .f32) (w : Vec Ideal S128x128 .f32) :
    sup2Of a s b w = support (M := 400) (K := 128) (N := 128) (affineRelu (M := 400) (K := 10000) (N := 128) a s b) w := by
  unfold sup2Of
  rw [View.canon_unit_zero hz]
  simp only [View.ld_unit_zero (S := S400x10000) hz, View.ld_unit_zero (S := S10000x128) hz, View.ld_unit_zero (S := S1x128) hz,
    View.ld_unit_zero (S := S128x128) hz]
  exact pay3_eq a s b w

theorem resOf_eq (a : Vec Ideal S400x10000 .f32) (s : Vec Ideal S10000x128 .f32) (b : Vec Ideal S1x128 .f32) (h : Vec Ideal S400x128 .f32) :
    resOf a s b h = fun j => affineRelu (M := 400) (K := 10000) (N := 128) a s b j + h j := by
  unfold resOf
  rw [View.canon_unit_zero hz]
  simp only [View.ld_unit_zero (S := S400x10000) hz, View.ld_unit_zero (S := S10000x128) hz, View.ld_unit_zero (S := S1x128) hz,
    View.ld_unit_zero (S := S400x128) hz]
  exact pay4_eq a s b h

/-! ## The input blocks read at an index -/

/-- Region 0's index maps at every point: the adjacency's and the two outputs' blocks move down the rows with the
    point, every other window stays on its whole array. -/
theorem idx0 : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) :=
  (by decide +kernel : ∀ t : Fin grid0.N, _)

/-- Region 1's: the adjacency's, the hidden array's and the output's blocks move down the rows with the point. -/
theorem idx1 : ∀ t : Fin cfg1.N,
    (win1_0.index t 0 = t.val ∧ win1_0.index t 1 = 0) ∧ (win1_1.index t 0 = 0 ∧ win1_1.index t 1 = 0)
    ∧ (win1_2.index t 0 = 0 ∧ win1_2.index t 1 = 0) ∧ (win1_3.index t 0 = t.val ∧ win1_3.index t 1 = 0)
    ∧ (win1_4.index t 0 = t.val ∧ win1_4.index t 1 = 0) :=
  (by decide +kernel : ∀ t : Fin grid1.N, _)

/-- The features' block is the features. -/
theorem iblk0_1_eq (c : Dev nD) (t : Fin cfg0.N) :
    (iblk0 V c 1 t : S10000x128.Idx → EReal) = (V c main_arg0 : S10000x128.Idx → EReal) := by
  obtain ⟨-, ⟨e0, e1⟩, -⟩ := idx0 t
  funext y
  show V c main_arg0 (((cfg0.win 1).blk t).view.emb y) = V c main_arg0 y
  congr 1
  funext a
  apply Fin.ext
  match a with
  | ⟨0, _⟩ => show win0_1.index t 0 * 10000 + 1 * (y 0).val = (y 0).val; rw [e0]; omega
  | ⟨1, _⟩ => show win0_1.index t 1 * 128 + 1 * (y 1).val = (y 1).val; rw [e1]; omega

/-- The first weights' block is the first weights. -/
theorem iblk0_2_eq (c : Dev nD) (t : Fin cfg0.N) :
    (iblk0 V c 2 t : S128x128.Idx → EReal) = (V c main_arg2 : S128x128.Idx → EReal) := by
  obtain ⟨-, -, ⟨e0, e1⟩, -⟩ := idx0 t
  funext y
  show V c main_arg2 (((cfg0.win 2).blk t).view.emb y) = V c main_arg2 y
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The second weights' block is the second weights. -/
theorem iblk0_3_eq (c : Dev nD) (t : Fin cfg0.N) :
    (iblk0 V c 3 t : S128x128.Idx → EReal) = (V c main_arg4 : S128x128.Idx → EReal) := by
  obtain ⟨-, -, -, ⟨e0, e1⟩, -⟩ := idx0 t
  funext y
  show V c main_arg4 (((cfg0.win 3).blk t).view.emb y) = V c main_arg4 y
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The bias row's block is the bias row. -/
theorem iblk0_4_eq (c : Dev nD) (t : Fin cfg0.N) :
    (iblk0 V c 4 t : S1x128.Idx → EReal) = (V c main_v0 : S1x128.Idx → EReal) := by
  obtain ⟨-, -, -, -, ⟨e0, e1⟩, -⟩ := idx0 t
  funext y
  show V c main_v0 (((cfg0.win 4).blk t).view.emb y) = V c main_v0 y
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- The adjacency's block at point `t` is rows `400 t … 400 t + 399` of the adjacency. -/
theorem iblk0_0_apply (c : Dev nD) (t : Fin cfg0.N) (y : S400x10000.Idx) (i : S10000x10000.Idx)
    (h0 : (i 0).val = 400 * t.val + (y 0).val) (h1 : (i 1).val = (y 1).val) :
    (iblk0 V c 0 t : S400x10000.Idx → EReal) y = (V c main_arg1 : S10000x10000.Idx → EReal) i := by
  obtain ⟨⟨e0, e1⟩, -⟩ := idx0 t
  show V c main_arg1 (((cfg0.win 0).blk t).view.emb y) = V c main_arg1 i
  congr 1
  funext a
  apply Fin.ext
  match a with
  | ⟨0, _⟩ => show win0_0.index t 0 * 400 + 1 * (y 0).val = (i 0).val; rw [e0, h0]; omega
  | ⟨1, _⟩ => show win0_0.index t 1 * 10000 + 1 * (y 1).val = (i 1).val; rw [e1, h1]; omega

/-- The second support's block in region 1 is the second support. -/
theorem iblk1_1_eq (c : Dev nD) (t : Fin cfg1.N) :
    (iblk1 V c 1 t : S10000x128.Idx → EReal) = (V c main_v2_1 : S10000x128.Idx → EReal) := by
  obtain ⟨-, ⟨e0, e1⟩, -⟩ := idx1 t
  funext y
  show V c main_v2_1 (((cfg1.win 1).blk t).view.emb y) = V c main_v2_1 y
  congr 1
  funext a
  apply Fin.ext
  match a with
  | ⟨0, _⟩ => show win1_1.index t 0 * 10000 + 1 * (y 0).val = (y 0).val; rw [e0]; omega
  | ⟨1, _⟩ => show win1_1.index t 1 * 128 + 1 * (y 1).val = (y 1).val; rw [e1]; omega

/-- The second bias row's block is that row. -/
theorem iblk1_2_eq (c : Dev nD) (t : Fin cfg1.N) :
    (iblk1 V c 2 t : S1x128.Idx → EReal) = (V c main_v1 : S1x128.Idx → EReal) := by
  obtain ⟨-, -, ⟨e0, e1⟩, -⟩ := idx1 t
  funext y
  show V c main_v1 (((cfg1.win 2).blk t).view.emb y) = V c main_v1 y
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

/-- Region 1's adjacency block at point `t` is rows `400 t … 400 t + 399` of the adjacency. -/
theorem iblk1_0_apply (c : Dev nD) (t : Fin cfg1.N) (y : S400x10000.Idx) (i : S10000x10000.Idx)
    (h0 : (i 0).val = 400 * t.val + (y 0).val) (h1 : (i 1).val = (y 1).val) :
    (iblk1 V c 0 t : S400x10000.Idx → EReal) y = (V c main_arg1 : S10000x10000.Idx → EReal) i := by
  obtain ⟨⟨e0, e1⟩, -⟩ := idx1 t
  show V c main_arg1 (((cfg1.win 0).blk t).view.emb y) = V c main_arg1 i
  congr 1
  funext a
  apply Fin.ext
  match a with
  | ⟨0, _⟩ => show win1_0.index t 0 * 400 + 1 * (y 0).val = (i 0).val; rw [e0, h0]; omega
  | ⟨1, _⟩ => show win1_0.index t 1 * 10000 + 1 * (y 1).val = (i 1).val; rw [e1, h1]; omega

/-- Region 1's hidden block at point `t` is rows `400 t … 400 t + 399` of the hidden array. -/
theorem iblk1_3_apply (c : Dev nD) (t : Fin cfg1.N) (y : S400x128.Idx) (i : S10000x128.Idx)
    (h0 : (i 0).val = 400 * t.val + (y 0).val) (h1 : (i 1).val = (y 1).val) :
    (iblk1 V c 3 t : S400x128.Idx → EReal) y = (V c main_v2_0 : S10000x128.Idx → EReal) i := by
  obtain ⟨-, -, -, ⟨e0, e1⟩, -⟩ := idx1 t
  show V c main_v2_0 (((cfg1.win 3).blk t).view.emb y) = V c main_v2_0 i
  congr 1
  funext a
  apply Fin.ext
  match a with
  | ⟨0, _⟩ => show win1_3.index t 0 * 400 + 1 * (y 0).val = (i 0).val; rw [e0, h0]; omega
  | ⟨1, _⟩ => show win1_3.index t 1 * 128 + 1 * (y 1).val = (i 1).val; rw [e1, h1]; omega

/-! ## The scratch -/

/-- The scratch holds the support of the features under the first weights. -/
theorem scr_eq (c : Dev nD) :
    scr V c = support (M := 10000) (K := 128) (N := 128) (V c main_arg0) (V c main_arg2) := by
  unfold scr
  rw [scrOf_eq, iblk0_1_eq, iblk0_2_eq]

/-! ## A block's rows of a row-wise product -/

/-- The rectified affine product reads only one row of its first operand: at a row of a block whose entries are the
    array's on the matching row, it is the array's product at that row. -/
theorem affineRelu_rows (A : S10000x10000.Idx → EReal) (a : S400x10000.Idx → EReal) (B : S10000x128.Idx → EReal)
    (b : S1x128.Idx → EReal) (j : S400x128.Idx) (i : S10000x128.Idx)
    (hA : ∀ k : Fin 10000, a (ix2 (j 0) k) = A (ix2 (i 0) k)) (h1 : i 1 = j 1) :
    affineRelu (M := 400) (K := 10000) (N := 128) a B b j = affineRelu (M := 10000) (K := 10000) (N := 128) A B b i := by
  show max ((∑ k : Fin 10000, a (ix2 (j 0) k) * B (ix2 k (j 1))) + b (ix2 (0 : Fin 1) (j 1))) _
    = max ((∑ k : Fin 10000, A (ix2 (i 0) k) * B (ix2 k (i 1))) + b (ix2 (0 : Fin 1) (i 1))) _
  rw [h1]
  congr 2
  exact Finset.sum_congr rfl fun k _ => by rw [hA k]

/-- So does the support. -/
theorem support_rows (H : S10000x128.Idx → EReal) (h : S400x128.Idx → EReal) (W : S128x128.Idx → EReal)
    (j : S400x128.Idx) (i : S10000x128.Idx)
    (hH : ∀ k : Fin 128, h (ix2 (j 0) k) = H (ix2 (i 0) k)) (h1 : i 1 = j 1) :
    support (M := 400) (K := 128) (N := 128) h W j = support (M := 10000) (K := 128) (N := 128) H W i := by
  show (∑ k : Fin 128, h (ix2 (j 0) k) * W (ix2 k (j 1))) = ∑ k : Fin 128, H (ix2 (i 0) k) * W (ix2 k (i 1))
  rw [h1]
  exact Finset.sum_congr rfl fun k _ => by rw [hH k]

/-! ## Region 0's outputs -/

/-- The hidden array. -/
abbrev hidG (c : Dev nD) : S10000x128.Idx → EReal :=
  affineRelu (M := 10000) (K := 10000) (N := 128) (V c main_arg1)
    (support (M := 10000) (K := 128) (N := 128) (V c main_arg0) (V c main_arg2)) (V c main_v0)

/-- The rows point `t` leaves are rows `400 t … 400 t + 399` of the hidden array. -/
theorem hidAt_apply (c : Dev nD) (t : Fin cfg0.N) (y : S400x128.Idx) (i : S10000x128.Idx)
    (h0 : (i 0).val = 400 * t.val + (y 0).val) (h1 : i 1 = y 1) :
    (hidAt V c t : S400x128.Idx → EReal) y = hidG V c i := by
  unfold hidAt
  rw [hidOf_eq, scr_eq, iblk0_4_eq]
  exact affineRelu_rows _ _ _ _ y i (fun k => iblk0_0_apply V c t _ _ h0 rfl) h1

/-- What point `t` writes back to the hidden array is block `t` of it. -/
theorem flushed5_eq (c : Dev nD) (t : Fin cfg0.N) :
    (dat0 V c).flushed 5 t = ((cfg0.win 5).blk t).view.read (Elt Ideal) (hidG V c) := by
  obtain ⟨-, -, -, -, -, ⟨e0, e1⟩, -⟩ := idx0 t
  show (cfg0.win 5).cut (grid0.coords t) ((dat0 V c).after 5 t) = _
  rw [after0_5]
  funext y
  show (hidAt V c t : S400x128.Idx → EReal) y = hidG V c (((cfg0.win 5).blk t).view.emb y)
  refine hidAt_apply V c t y _ ?_ ?_
  · show win0_5.index t 0 * 400 + 1 * (y 0).val = 400 * t.val + (y 0).val
    rw [e0]; omega
  · apply Fin.ext
    show win0_5.index t 1 * 128 + 1 * (y 1).val = (y 1).val
    rw [e1]; omega

/-- An index of the hidden array is in point `t`'s block iff each coordinate is in the block's range on its axis. -/
theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v2_0).slice (win0_5.rect t)).set ↔ _
  rw [View.set_slice_whole, Rect.mem_set_unit]
  exact Iff.rfl

/-- Row `r` lies in the block of point `r / 400`. -/
theorem cover5 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  let t : Fin cfg0.N := ⟨(i 0).val / 400, by show (i 0).val / 400 < 25; omega⟩
  obtain ⟨-, -, -, -, -, ⟨e0, e1⟩, -⟩ := idx0 t
  have et : t.val = (i 0).val / 400 := rfl
  refine ⟨t, flush0_5 t, ?_⟩
  rw [mem_blk5]
  intro a
  match a with
  | ⟨0, _⟩ => show win0_5.index t 0 * 400 ≤ (i 0).val ∧ (i 0).val < win0_5.index t 0 * 400 + 400; rw [e0, et]; omega
  | ⟨1, _⟩ => show win0_5.index t 1 * 128 ≤ (i 1).val ∧ (i 1).val < win0_5.index t 1 * 128 + 128; rw [e1]; omega

/-- Region 0's first output ends holding the hidden array. -/
theorem hid_final (c : Dev nD) : (dat0 V c).arrAt 5 cfg0.N = affineRelu (M := 10000) (K := 10000) (N := 128) (V c main_arg1) (support (M := 10000) (K := 128) (N := 128) (V c main_arg0) (V c main_arg2)) (V c main_v0) :=
  (dat0 V c).arrAt_eq_of_cover 5 (hidG V c) (fun t _ => flushed5_eq V c t) cover5

/-- The second support. -/
abbrev sup2G (c : Dev nD) : S10000x128.Idx → EReal :=
  support (M := 10000) (K := 128) (N := 128) (hidG V c) (V c main_arg4)

/-- The second support's rows point `t` leaves are rows `400 t … 400 t + 399` of the second support. -/
theorem sup2At_apply (c : Dev nD) (t : Fin cfg0.N) (y : S400x128.Idx) (i : S10000x128.Idx)
    (h0 : (i 0).val = 400 * t.val + (y 0).val) (h1 : i 1 = y 1) :
    (sup2At V c t : S400x128.Idx → EReal) y = sup2G V c i := by
  unfold sup2At
  rw [sup2Of_eq, scr_eq, iblk0_4_eq, iblk0_3_eq]
  refine support_rows _ _ _ y i (fun k => ?_) h1
  exact affineRelu_rows _ _ _ _ (ix2 (y 0) k) (ix2 (i 0) k) (fun k' => iblk0_0_apply V c t _ _ h0 rfl) rfl

/-- What point `t` writes back to the second support is block `t` of it. -/
theorem flushed6_eq (c : Dev nD) (t : Fin cfg0.N) :
    (dat0 V c).flushed 6 t = ((cfg0.win 6).blk t).view.read (Elt Ideal) (sup2G V c) := by
  obtain ⟨-, -, -, -, -, -, ⟨e0, e1⟩⟩ := idx0 t
  show (cfg0.win 6).cut (grid0.coords t) ((dat0 V c).after 6 t) = _
  rw [after0_6]
  funext y
  show (sup2At V c t : S400x128.Idx → EReal) y = sup2G V c (((cfg0.win 6).blk t).view.emb y)
  refine sup2At_apply V c t y _ ?_ ?_
  · show win0_6.index t 0 * 400 + 1 * (y 0).val = 400 * t.val + (y 0).val
    rw [e0]; omega
  · apply Fin.ext
    show win0_6.index t 1 * 128 + 1 * (y 1).val = (y 1).val
    rw [e1]; omega

/-- An index of the second support is in point `t`'s block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v2_1).slice (win0_6.rect t)).set ↔ _
  rw [View.set_slice_whole, Rect.mem_set_unit]
  exact Iff.rfl

/-- Row `r` lies in the block of point `r / 400`. -/
theorem cover6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  let t : Fin cfg0.N := ⟨(i 0).val / 400, by show (i 0).val / 400 < 25; omega⟩
  obtain ⟨-, -, -, -, -, -, ⟨e0, e1⟩⟩ := idx0 t
  have et : t.val = (i 0).val / 400 := rfl
  refine ⟨t, flush0_6 t, ?_⟩
  rw [mem_blk6]
  intro a
  match a with
  | ⟨0, _⟩ => show win0_6.index t 0 * 400 ≤ (i 0).val ∧ (i 0).val < win0_6.index t 0 * 400 + 400; rw [e0, et]; omega
  | ⟨1, _⟩ => show win0_6.index t 1 * 128 ≤ (i 1).val ∧ (i 1).val < win0_6.index t 1 * 128 + 128; rw [e1]; omega

/-- Region 0's second output ends holding the hidden array's support under the second weights. -/
theorem sup2_final (c : Dev nD) : (dat0 V c).arrAt 6 cfg0.N = support (M := 10000) (K := 128) (N := 128) (affineRelu (M := 10000) (K := 10000) (N := 128) (V c main_arg1) (support (M := 10000) (K := 128) (N := 128) (V c main_arg0) (V c main_arg2)) (V c main_v0)) (V c main_arg4) :=
  (dat0 V c).arrAt_eq_of_cover 6 (sup2G V c) (fun t _ => flushed6_eq V c t) cover6

/-! ## Region 1's output -/

/-- The result, over the arrays region 1 finds. -/
abbrev resG (c : Dev nD) : S10000x128.Idx → EReal :=
  fun j => affineRelu (M := 10000) (K := 10000) (N := 128) (V c main_arg1) (V c main_v2_1) (V c main_v1) j + (V c main_v2_0 : S10000x128.Idx → EReal) j

/-- The rows point `t` of region 1 leaves are rows `400 t … 400 t + 399` of the result. -/
theorem resAt_apply (c : Dev nD) (t : Fin cfg1.N) (y : S400x128.Idx) (i : S10000x128.Idx)
    (h0 : (i 0).val = 400 * t.val + (y 0).val) (h1 : i 1 = y 1) :
    (resAt V c t : S400x128.Idx → EReal) y = resG V c i := by
  unfold resAt
  rw [resOf_eq, iblk1_1_eq, iblk1_2_eq]
  show affineRelu (M := 400) (K := 10000) (N := 128) _ _ _ y + (iblk1 V c 3 t : S400x128.Idx → EReal) y = _ + _
  rw [affineRelu_rows _ _ _ _ y i (fun k => iblk1_0_apply V c t _ _ h0 rfl) h1,
    iblk1_3_apply V c t y i h0 (congrArg Fin.val h1)]

/-- What point `t` writes back to the result is block `t` of it. -/
theorem flushed4_eq (c : Dev nD) (t : Fin cfg1.N) :
    (dat1 V c).flushed 4 t = ((cfg1.win 4).blk t).view.read (Elt Ideal) (resG V c) := by
  obtain ⟨-, -, -, -, ⟨e0, e1⟩⟩ := idx1 t
  show (cfg1.win 4).cut (grid1.coords t) ((dat1 V c).after 4 t) = _
  rw [after1_4]
  funext y
  show (resAt V c t : S400x128.Idx → EReal) y = resG V c (((cfg1.win 4).blk t).view.emb y)
  refine resAt_apply V c t y _ ?_ ?_
  · show win1_4.index t 0 * 400 + 1 * (y 0).val = 400 * t.val + (y 0).val
    rw [e0]; omega
  · apply Fin.ext
    show win1_4.index t 1 * 128 + 1 * (y 1).val = (y 1).val
    rw [e1]; omega

/-- An index of the result is in point `t`'s block iff each coordinate is in the block's range on its axis. -/
theorem mem_blk4 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v3).slice (win1_4.rect t)).set ↔ _
  rw [View.set_slice_whole, Rect.mem_set_unit]
  exact Iff.rfl

/-- Row `r` lies in the block of point `r / 400`. -/
theorem cover4 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  let t : Fin cfg1.N := ⟨(i 0).val / 400, by show (i 0).val / 400 < 25; omega⟩
  obtain ⟨-, -, -, -, ⟨e0, e1⟩⟩ := idx1 t
  have et : t.val = (i 0).val / 400 := rfl
  refine ⟨t, flush1_4 t, ?_⟩
  rw [mem_blk4]
  intro a
  match a with
  | ⟨0, _⟩ => show win1_4.index t 0 * 400 ≤ (i 0).val ∧ (i 0).val < win1_4.index t 0 * 400 + 400; rw [e0, et]; omega
  | ⟨1, _⟩ => show win1_4.index t 1 * 128 ≤ (i 1).val ∧ (i 1).val < win1_4.index t 1 * 128 + 128; rw [e1]; omega

/-- Region 1's output ends holding the second layer's rectified rows plus the hidden array, over the arrays it finds. -/
theorem res_final (c : Dev nD) : (dat1 V c).arrAt 4 cfg1.N = fun j => affineRelu (M := 10000) (K := 10000) (N := 128) (V c main_arg1) (V c main_v2_1) (V c main_v1) j + (V c main_v2_0 : S10000x128.Idx → EReal) j :=
  (dat1 V c).arrAt_eq_of_cover 4 (resG V c) (fun t _ => flushed4_eq V c t) cover4

end Cert.KernelIdeal.HandValue

end
-- ==== Proof.IdealResult.lean ====
/-
  The kernel program's result array, from the launch memory's argument arrays, is the specification's two-layer
  graph convolution of them.
-/
import proofs.«134732_g77695958385289_cont_9to1_m_732_14_alg».proof.Proof.IdealOuts
import proofs.«134732_g77695958385289_cont_9to1_m_732_14_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand Cert.PlainDot Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## Region 0's entry contents, from the launch memory -/

/-- The features array is entered as launched. -/
theorem entry_feat (c : Dev nD) : E0 m c main_arg0 = m ((c.tc : Thread nD τ).loc main_arg0) :=
  (V1_of m c main_arg0 (by decide)).trans rfl

/-- The adjacency array is entered as launched. -/
theorem entry_adj (c : Dev nD) : E0 m c main_arg1 = m ((c.tc : Thread nD τ).loc main_arg1) :=
  (V1_of m c main_arg1 (by decide)).trans rfl

/-- The first weights are entered as launched. -/
theorem entry_w1 (c : Dev nD) : E0 m c main_arg2 = m ((c.tc : Thread nD τ).loc main_arg2) :=
  (V1_of m c main_arg2 (by decide)).trans rfl

/-- The second weights are entered as launched. -/
theorem entry_w2 (c : Dev nD) : E0 m c main_arg4 = m ((c.tc : Thread nD τ).loc main_arg4) :=
  (V1_of m c main_arg4 (by decide)).trans rfl

/-- A vector of length 128 reshaped to one row is the specification's one-row array of it. -/
theorem shapeCast_row (b : S128.Idx → EReal) : shapeCast S1x128 b shapeCasts_S128_S1x128 = row b := by
  funext j
  obtain ⟨u, q, rfl⟩ : ∃ (u : Fin 1) (q : Fin 128), j = ix2 u q := ⟨j 0, j 1, eq_ix2 j⟩
  exact shapeCast_a_1a_apply b shapeCasts_S128_S1x128 u q

/-- The first bias row is the first bias vector as one row. -/
theorem entry_bias1 (c : Dev nD) : (E0 m c main_v0 : S1x128.Idx → EReal) = row (m ((c.tc : Thread nD τ).loc main_arg3)) := by
  have e : (E0 m c main_v0 : S1x128.Idx → EReal) = shapeCast S1x128 (m ((c.tc : Thread nD τ).loc main_arg3)) shapeCasts_S128_S1x128 := by
    show StableHlo.after hostOps0 (fun b => m (c, b)) (Proc.devRef .tc main_v0) = _
    after_results
    rfl
  rw [e]
  exact shapeCast_row _

/-- The second bias row is the second bias vector as one row. -/
theorem entry_bias2 (c : Dev nD) : (E0 m c main_v1 : S1x128.Idx → EReal) = row (m ((c.tc : Thread nD τ).loc main_arg5)) := by
  have e : (E0 m c main_v1 : S1x128.Idx → EReal) = shapeCast S1x128 (m ((c.tc : Thread nD τ).loc main_arg5)) shapeCasts_S128_S1x128 := by
    show StableHlo.after hostOps0 (fun b => m (c, b)) (Proc.devRef .tc main_v1) = _
    after_results
    rfl
  rw [e]
  exact shapeCast_row _

/-! ## Region 1's entry contents -/

/-- The adjacency array enters region 1 as launched. -/
theorem entry1_adj (c : Dev nD) : E1 m c main_arg1 = m ((c.tc : Thread nD τ).loc main_arg1) :=
  (Ve1_of m c main_arg1 (by decide)).trans (entry_adj m c)

/-- The second bias row enters region 1 as the second bias vector as one row. -/
theorem entry1_bias2 (c : Dev nD) : (E1 m c main_v1 : S1x128.Idx → EReal) = row (m ((c.tc : Thread nD τ).loc main_arg5)) :=
  (Ve1_of m c main_v1 (by decide)).trans (entry_bias2 m c)

/-! ## The result -/

/-- The result array after region 1 is
    max (adj · (hidden · W2) + b2) 0 + hidden  with  hidden = max (adj · (x · W1) + b1) 0  of the launched arguments. -/
theorem result_value (c : Dev nD)
    (hhid : (dat0 (E0 m) c).arrAt 5 cfg0.N = affineRelu (M := 10000) (K := 10000) (N := 128) (E0 m c main_arg1) (support (M := 10000) (K := 128) (N := 128) (E0 m c main_arg0) (E0 m c main_arg2)) (E0 m c main_v0))
    (hsup : (dat0 (E0 m) c).arrAt 6 cfg0.N = support (M := 10000) (K := 128) (N := 128) (affineRelu (M := 10000) (K := 10000) (N := 128) (E0 m c main_arg1) (support (M := 10000) (K := 128) (N := 128) (E0 m c main_arg0) (E0 m c main_arg2)) (E0 m c main_v0)) (E0 m c main_arg4))
    (hres : (dat1 (E1 m) c).arrAt 4 cfg1.N = fun j => affineRelu (M := 10000) (K := 10000) (N := 128) (E1 m c main_arg1) (E1 m c main_v2_1) (E1 m c main_v1) j + (E1 m c main_v2_0 : S10000x128.Idx → EReal) j) :
    V3 m (outs m) c main_v3 = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [V3_result, hres, Ve1_hidden, Ve1_support, hhid, hsup, entry1_adj, entry1_bias2, entry_adj, entry_feat,
    entry_w1, entry_w2, entry_bias1]
  rfl

end Cert.KernelIdeal.HandValue

end
-- ==== Proof.RefValue.lean ====
/-
  The reference program's result, read index by index, is the specification's two-layer graph convolution.
-/
import proofs.«134732_g77695958385289_cont_9to1_m_732_14_alg».proof.Proof.Gen.ReferenceIdeal.Read
import proofs.«134732_g77695958385289_cont_9to1_m_732_14_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The index maps of the reference's contractions and broadcasts, at an index given by its coordinates -/

/-- The adjacency operand of the first layer's outer product is read at (row, inner). -/
theorem lidx_v1 (p : Fin 10000) (q : Fin 128) (k : Fin 10000) : lidx_main_v1 (ix2 p q) k = ix2 p k :=
  funext fun a => match a with | ⟨0, _⟩ => rfl | ⟨1, _⟩ => rfl
/-- The support operand of the first layer's outer product is read at (inner, column). -/
theorem ridx_v1 (p : Fin 10000) (q : Fin 128) (k : Fin 10000) : ridx_main_v1 (ix2 p q) k = ix2 k q :=
  funext fun a => match a with | ⟨0, _⟩ => rfl | ⟨1, _⟩ => rfl
/-- The features operand of the first support product is read at (row, inner). -/
theorem lidx_v0 (p : Fin 10000) (q : Fin 128) (k : Fin 128) : lidx_main_v0 (ix2 p q) k = ix2 p k :=
  funext fun a => match a with | ⟨0, _⟩ => rfl | ⟨1, _⟩ => rfl
/-- The weight operand of the first support product is read at (inner, column). -/
theorem ridx_v0 (p : Fin 10000) (q : Fin 128) (k : Fin 128) : ridx_main_v0 (ix2 p q) k = ix2 k q :=
  funext fun a => match a with | ⟨0, _⟩ => rfl | ⟨1, _⟩ => rfl
/-- The one-row bias array of the first layer is read at (0, column). -/
theorem idx_v3 (p : Fin 10000) (q : Fin 128) : idx_main_v3 (ix2 p q) = ix2 (0 : Fin 1) q :=
  funext fun a => match a with | ⟨0, _⟩ => rfl | ⟨1, _⟩ => rfl
/-- The first bias vector is read at the column. -/
theorem idx_v2 (q : Fin 128) : idx_main_v2 (ix2 (0 : Fin 1) q) = ix1 q :=
  funext fun a => match a with | ⟨0, _⟩ => rfl
/-- The adjacency operand of the second layer's outer product is read at (row, inner). -/
theorem lidx_v7 (p : Fin 10000) (q : Fin 128) (k : Fin 10000) : lidx_main_v7 (ix2 p q) k = ix2 p k :=
  funext fun a => match a with | ⟨0, _⟩ => rfl | ⟨1, _⟩ => rfl
/-- The support operand of the second layer's outer product is read at (inner, column). -/
theorem ridx_v7 (p : Fin 10000) (q : Fin 128) (k : Fin 10000) : ridx_main_v7 (ix2 p q) k = ix2 k q :=
  funext fun a => match a with | ⟨0, _⟩ => rfl | ⟨1, _⟩ => rfl
/-- The hidden operand of the second support product is read at (row, inner). -/
theorem lidx_v6 (p : Fin 10000) (q : Fin 128) (k : Fin 128) : lidx_main_v6 (ix2 p q) k = ix2 p k :=
  funext fun a => match a with | ⟨0, _⟩ => rfl | ⟨1, _⟩ => rfl
/-- The weight operand of the second support product is read at (inner, column). -/
theorem ridx_v6 (p : Fin 10000) (q : Fin 128) (k : Fin 128) : ridx_main_v6 (ix2 p q) k = ix2 k q :=
  funext fun a => match a with | ⟨0, _⟩ => rfl | ⟨1, _⟩ => rfl
/-- The one-row bias array of the second layer is read at (0, column). -/
theorem idx_v9 (p : Fin 10000) (q : Fin 128) : idx_main_v9 (ix2 p q) = ix2 (0 : Fin 1) q :=
  funext fun a => match a with | ⟨0, _⟩ => rfl | ⟨1, _⟩ => rfl
/-- The second bias vector is read at the column. -/
theorem idx_v8 (q : Fin 128) : idx_main_v8 (ix2 (0 : Fin 1) q) = ix1 q :=
  funext fun a => match a with | ⟨0, _⟩ => rfl

/-! ## The hidden array -/

/-- The reference's rectified first layer at (p, q) is
    max (∑ k, adj (p, k) * (∑ k', x (k, k') * W1 (k', q)) + b1 q) 0, the specification's hidden array there. -/
theorem hidden_apply (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (p : Fin 10000) (q : Fin 128) :
    val_main_v5 (F := Ideal) x0 x1 x2 x3 (ix2 p q) = Cert.Spec.hidden x0 x1 x2 x3 (ix2 p q) := by
  rw [val_main_v5_apply, val_main_v4_apply, val_main_v1_apply, val_main_v3_apply, val_main_v2_apply,
    val_main_call0_v0_apply, val_main_call0_cst_apply]
  simp only [val_main_v0_apply, lidx_v1, ridx_v1, lidx_v0, ridx_v0, idx_v3, idx_v2]
  rfl

/-- The reference's rectified first layer is the specification's hidden array. -/
theorem hidden_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v5 (F := Ideal) x0 x1 x2 x3 = Cert.Spec.hidden x0 x1 x2 x3 := by
  funext i
  obtain ⟨p, q, rfl⟩ : ∃ (p : Fin 10000) (q : Fin 128), i = ix2 p q := ⟨i 0, i 1, eq_ix2 i⟩
  exact hidden_apply x0 x1 x2 x3 p q

/-! ## The result -/

/-- The reference's result at (p, q) is
    max (∑ k, adj (p, k) * (∑ k', hidden (k, k') * W2 (k', q)) + b2 q) 0 + hidden (p, q), the specification's result. -/
theorem result_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    Cert.ReferenceIdeal.Read.val_main_v12 (F := Ideal) x0 x1 x2 x3 x4 x5 = Cert.Spec.result x0 x1 x2 x3 x4 x5 := by
  funext i
  obtain ⟨p, q, rfl⟩ : ∃ (p : Fin 10000) (q : Fin 128), i = ix2 p q := ⟨i 0, i 1, eq_ix2 i⟩
  rw [val_main_v12_apply, val_main_v11_apply, val_main_v10_apply, val_main_v7_apply, val_main_v9_apply,
    val_main_v8_apply, val_main_call1_v0_apply, val_main_call1_cst_apply, hidden_apply]
  simp only [val_main_v6_apply, lidx_v7, ridx_v7, lidx_v6, ridx_v6, idx_v9, idx_v8, hidden_apply]
  rfl

end Cert.ReferenceIdeal.RefValue

end
-- ==== Proof.lean ====
/-
  The certificate of the two-layer graph convolution: a Pallas program of two kernel regions — the first layer
  with the next layer's support in its epilogue, then the second layer with the residual — against the plain
  reference  relu(adj · (h · W2) + b2) + h,  h = relu(adj · (x · W1) + b1).

  Frames.  Each kernel program is the two reshapes of the bias vectors followed by the two regions; each region's
  body runs at every grid point from its windows' blocks (the first region keeps the support x · W1 in a
  scratch buffer from its first point on), so the program terminates without a fault and writes no argument.
  The reference is a straight line of host operations.

  Values.  On the extended reals a product into a zero accumulator and the host's dot product are the same sum
  over the inner index, a change of tiling changes nothing (a block of rows of a product is the product of the
  block of rows), and the rectifier is the same maximum with the value of the zero word on both sides: the
  kernel's result array and the reference's are one function of the six arguments (Spec.lean), index by index.
  No algebraic law joins the two sides, so the precondition is never opened.
-/
import proofs.«134732_g77695958385289_cont_9to1_m_732_14_alg».proof.Defs
import proofs.«134732_g77695958385289_cont_9to1_m_732_14_alg».proof.Proof.Gen.Kernel
import proofs.«134732_g77695958385289_cont_9to1_m_732_14_alg».proof.Proof.Gen.KernelIdeal
import proofs.«134732_g77695958385289_cont_9to1_m_732_14_alg».proof.Proof.Gen.ReferenceIdeal
import proofs.«134732_g77695958385289_cont_9to1_m_732_14_alg».proof.Proof.Gen.Pre_finite_inputs
import proofs.«134732_g77695958385289_cont_9to1_m_732_14_alg».proof.Proof.Gen.ReferenceIdeal.Run
import proofs.«134732_g77695958385289_cont_9to1_m_732_14_alg».proof.Proof.Gen.ReferenceIdeal.Read
import proofs.«134732_g77695958385289_cont_9to1_m_732_14_alg».proof.Proof.BitsRun
import proofs.«134732_g77695958385289_cont_9to1_m_732_14_alg».proof.Proof.IdealRunValue
import proofs.«134732_g77695958385289_cont_9to1_m_732_14_alg».proof.Proof.IdealValue
import proofs.«134732_g77695958385289_cont_9to1_m_732_14_alg».proof.Proof.IdealResult
import proofs.«134732_g77695958385289_cont_9to1_m_732_14_alg».proof.Proof.RefValue
import Idealize.ShloMosaic.Adequacy
import Idealize.ShloMosaic.Init

noncomputable section

namespace Cert.Proof

open Idealize.ShloMosaic Idealize.SL.Sem

/-- The word-level kernel program runs to the end and leaves its arguments as launched. -/
theorem frame_kernel [Cert.Kernel.Facts] [Cert.Pre_finite_inputs.Facts] : Cert.frame_Kernel :=
  fun m ρ _ => Cert.Kernel.Hand.frame m ρ

/-- So does the idealized kernel program. -/
theorem frame_kernelIdeal [Cert.KernelIdeal.Facts] [Cert.Pre_finite_inputs.Facts] : Cert.frame_KernelIdeal :=
  fun m ρ _ => Cert.KernelIdeal.Hand.frame m ρ

/-- The reference is a straight line of host operations: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- On the extended reals both programs end with the specification's function of the arguments in their result
    arrays: the kernel's by the two regions' blocks read as whole arrays, the reference's operation by operation. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans
        (Cert.KernelIdeal.HandValue.result_value m c
          (Cert.KernelIdeal.HandValue.hid_final (Cert.KernelIdeal.Hand.E0 m) c)
          (Cert.KernelIdeal.HandValue.sup2_final (Cert.KernelIdeal.Hand.E0 m) c)
          (Cert.KernelIdeal.HandValue.res_final (Cert.KernelIdeal.Hand.E1 m) c)), (h c).2⟩)
      (Cert.KernelIdeal.Hand.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v12_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
